-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S4096x1 : Shape := ⟨2, ![4096, 1]⟩
abbrev S_ : Shape := ⟨0, ![]⟩
abbrev S512x512 : Shape := ⟨2, ![512, 512]⟩
abbrev S512x4096 : Shape := ⟨2, ![512, 4096]⟩
abbrev S4096x512 : Shape := ⟨2, ![4096, 512]⟩

abbrev nBuf : Space → Nat
  | .hbm => 29
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .i32⟩
  | .hbm, ⟨3, _⟩ => ⟨S1x4096, .i32⟩
  | .hbm, ⟨4, _⟩ => ⟨S4096x1, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .bf16⟩
  | .hbm, ⟨25, _⟩ => ⟨S8192x4096, .bf16⟩
  | .hbm, ⟨26, _⟩ => ⟨S4096x4096, .bf16⟩
  | .hbm, ⟨27, _⟩ => ⟨S8192x4096, .bf16⟩
  | .hbm, ⟨28, _⟩ => ⟨S8192x4096, .f32⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .f32⟩
  | .local _ .vmem, ⟨7, _⟩ => ⟨S512x512, .bf16⟩
  | .local _ .vmem, ⟨8, _⟩ => ⟨S512x512, .bf16⟩
  | .local _ .vmem, ⟨9, _⟩ => ⟨S4096x512, .bf16⟩
  | .local _ .vmem, ⟨10, _⟩ => ⟨S4096x512, .bf16⟩
  | .local _ .vmem, ⟨11, _⟩ => ⟨S512x4096, .f32⟩
  | .local _ .vmem, ⟨12, _⟩ => ⟨S512x4096, .f32⟩
  | .local _ .vmem, ⟨13, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x4096_S512x4096_0_0 : (Rect.unit (s := S512x4096) ![0, 0] S512x4096.size inb_S512x4096_S512x4096_0_0).PackedRows (EltTy.packing .bf16)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  dot_S512x512_S512x4096_S512x4096_1_0_0_1_n_n_wf : DotDims.WF S512x512 S512x4096 S512x4096 [1] [0] [0] [1] [] []
  dot_S512x512_S4096x512_S512x4096_1_1_0_0_n_n_wf : DotDims.WF S512x512 S4096x512 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .bf16 = 32 ∨ (Rect.block (s := S8192x4096) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .bf16 = 32 ∨ (Rect.block (s := S8192x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x4096.size a
  hwx1_0 : ∀ i : grid1.Coords, EltTy.bits .bf16 = 32 ∨ (Rect.block (s := S8192x4096) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x4096.size a
  hwx1_1 : ∀ i : grid1.Coords, EltTy.bits .bf16 = 32 ∨ (Rect.block (s := S4096x4096) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S8192x4096.size a
  hwx1_2 : ∀ i : grid1.Coords, EltTy.bits .f32 = 32 ∨ (Rect.block (s := S8192x4096) S512x4096.size (cc1_transform_2 i) (hinb1_2 i)).WholeWords (EltTy.packing .f32)

variable [Facts₀]

def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_v18) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v20) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S4096x1 : Shape := ⟨2, ![4096, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .i32⟩
  | .hbm, ⟨3, _⟩ => ⟨S1x4096, .i32⟩
  | .hbm, ⟨4, _⟩ => ⟨S4096x1, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S8192x4096, .f32⟩
  | .hbm, ⟨25, _⟩ => ⟨S4096x4096, .f32⟩
  | .hbm, ⟨26, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KI.Shared0.lean ====
/- What the runs of the first kernel region (A·W, accumulated over eight contraction steps) share: each window's block at a grid point, the two conditions of the body decided over the grid
   (first contraction step, last contraction step), where the output window is idle, and the memrefs the body is called with. -/
import proofs.«107319_j2078764171786_1_alg».proof.Proof.Gen.KernelIdeal.Launch
import proofs.«107319_j2078764171786_1_alg».proof.Proof.Gen.KernelIdeal.Skeleton
import proofs.«107319_j2078764171786_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the windows' blocks, the grid's two conditions, the staging memrefs -/

section
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-- The body's first condition: the contraction step is the first (the accumulator is reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The body's second condition: the contraction step is the last (the accumulator is written out). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
/-- Where the last step's condition fails the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096/-w1-/ .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .bf16/-o-/ := win0_2.stage (cfg0.slots t 2)
abbrev hs0_2 (t : Fin cfg0.N) : (ms0_2 t).IsWhole := hstage0_2 ((cfg0.slots t 2).cast nbuf0_2)
/-- The accumulator: a whole scoped buffer of the kernel's own, carried from one grid point to the next. -/
abbrev scM0 : Memref sig .tc .vmem S512x4096 .f32 := Memref.whole cc0_scratch0
abbrev VS0 : View sig .tc .vmem S512x4096 .f32 := (scM0).view
/-- One staging buffer of the output window, through which its contents are stated. -/
abbrev VO0 : View sig .tc .vmem S512x4096 .bf16/-o-/ := (Memref.whole cc0_stg2_0 : Memref sig .tc .vmem S512x4096 .bf16/-o-/).view

/-- The core's scoped buffers that are neither this region's staging buffers nor its accumulator (the other region's), each whole at some contents. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant before its first point splits into the accumulator owned at some contents, the other scoped buffers, and
    the generator register at some state; -/
theorem PhiA0_out (c : Dev nD) :
    (Pipeline.ΦA spec0 c : sProp 𝕄) ⊢ iprop((∃ d, owns (c : Thread nD τ) scM0 fullShare d) ∗ other0 c ∗ (∃ r, prngReg c r)) := by
  unfold Pipeline.ΦA; rw [scopedRest0_eq]; simp only [scM0, owns_whole]; unfold other0
  iintro ⟨⟨HS, Hrest⟩, Hg⟩
  isplitl [HS]; · iexact HS
  isplitl [Hrest]; · iexact Hrest
  iexact Hg
/-- and is made of them again. -/
theorem PhiA0_in (c : Dev nD) :
    iprop((∃ d, owns (c : Thread nD τ) scM0 fullShare d) ∗ other0 c ∗ (∃ r, prngReg c r)) ⊢ (Pipeline.ΦA spec0 c : sProp 𝕄) := by
  unfold Pipeline.ΦA; rw [scopedRest0_eq]; simp only [scM0, owns_whole]; unfold other0
  iintro ⟨HS, Hrest, Hg⟩
  isplitr [Hg]
  · isplitl [HS]; · iexact HS
    iexact Hrest
  iexact Hg

end Cert.KernelIdeal.Hand

end
-- ==== Proof.KI.Run0A.lean ====
/- Region 0's kernel body run once at the first contraction step: the accumulator, owned at any contents, is stored whole twice (the zero block, then zero plus the step's product); the output window's buffer is handed back untouched. The lists of pieces (rectangle and stored value, last store first)
   are found by the symbolic run itself. -/
import proofs.«107319_j2078764171786_1_alg».proof.Proof.KI.Shared0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : cond0_0 i) (hc1 : ¬cond0_1 i)
    (x0 : Vec F S512x512 .bf16) (x1 : Vec F S512x4096/-w1-/ .bf16) :
    Σ' (L2 : List (View.Piece (Elt F) S512x4096 .bf16/-o-/)), { LS0 : List (View.Piece (Elt F) S512x4096 .f32) //
      ∀ (xi2 : Vec F S512x4096 .bf16/-o-/) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Run0B.lean ====
/- Region 0's kernel body run once at a middle contraction step: the accumulator, holding what the step before left, is stored whole once (that plus the step's product); the output window's buffer is handed back untouched. The lists of pieces (rectangle and stored value, last store first)
   are found by the symbolic run itself. -/
import proofs.«107319_j2078764171786_1_alg».proof.Proof.KI.Shared0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : ¬cond0_0 i) (hc1 : ¬cond0_1 i)
    (x0 : Vec F S512x512 .bf16) (x1 : Vec F S512x4096/-w1-/ .bf16) (xs0 : Vec F S512x4096 .f32) :
    Σ' (L2 : List (View.Piece (Elt F) S512x4096 .bf16/-o-/)), { LS0 : List (View.Piece (Elt F) S512x4096 .f32) //
      ∀ (xi2 : Vec F S512x4096 .bf16/-o-/) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Run0C.lean ====
/- Region 0's kernel body run once at the last contraction step: the accumulator, holding what the step before left, is stored whole once and then copied into the output window's buffer, owned at any contents. The lists of pieces (rectangle and stored value, last store first)
   are found by the symbolic run itself. -/
import proofs.«107319_j2078764171786_1_alg».proof.Proof.KI.Shared0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : ¬cond0_0 i) (hc1 : cond0_1 i)
    (x0 : Vec F S512x512 .bf16) (x1 : Vec F S512x4096/-w1-/ .bf16) (xs0 : Vec F S512x4096 .f32) :
    Σ' (L2 : List (View.Piece (Elt F) S512x4096 .bf16/-o-/)), { LS0 : List (View.Piece (Elt F) S512x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Region0.lean ====
/- Region 0 (C = A·W, the contraction cut into eight steps of 512): what its kernel leaves point by point in the accumulator and in the output window's
   buffer, the region's invariant (the accumulator at what the point before left), the pipeline's proof data, and the body obligation at every grid point.
   The grid is 16 row blocks by 8 contraction steps, walked row block by row block: point `t` is step `t % 8` of row block `t / 8`. -/
import proofs.«107319_j2078764171786_1_alg».proof.Proof.KI.Run0A
import proofs.«107319_j2078764171786_1_alg».proof.Proof.KI.Run0B
import proofs.«107319_j2078764171786_1_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after case A: the case's stores read back. They cover it. -/
theorem scover0_A (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : cond0_0 i) (hc1 : ¬cond0_1 i)
    (x0 : Vec F S512x512 .bf16) (x1 : Vec F S512x4096/-w1-/ .bf16) (y : S512x4096.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S512x4096.size (by sl_kernel_rfl) y
def sout0_A (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : cond0_0 i) (hc1 : ¬cond0_1 i)
    (x0 : Vec F S512x512 .bf16) (x1 : Vec F S512x4096/-w1-/ .bf16) : Vec F S512x4096 .f32 :=
  VS0.read (Elt F) (VS0.writes (Elt F) VS0.junk (kernelRun0_A c i arg2 harg2 arg3 harg3 arg4 harg4 arg5 harg5 hc0 hc1 x0 x1).2.1)
/-- The output window's buffer after case A: nothing is stored (the window is idle there); a placeholder nothing consults. -/
def out0_A (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : cond0_0 i) (hc1 : ¬cond0_1 i)
    (x0 : Vec F S512x512 .bf16) (x1 : Vec F S512x4096/-w1-/ .bf16) : Vec F S512x4096 .bf16/-o-/ :=
  VO0.read (Elt F) (VO0.writes (Elt F) VO0.junk (kernelRun0_A c i arg2 harg2 arg3 harg3 arg4 harg4 arg5 harg5 hc0 hc1 x0 x1).1)

/-- The accumulator after case B: the case's stores read back. They cover it. -/
theorem scover0_B (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : ¬cond0_0 i) (hc1 : ¬cond0_1 i)
    (x0 : Vec F S512x512 .bf16) (x1 : Vec F S512x4096/-w1-/ .bf16) (xs0 : Vec F S512x4096 .f32) (y : S512x4096.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S512x4096.size (by sl_kernel_rfl) y
def sout0_B (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : ¬cond0_0 i) (hc1 : ¬cond0_1 i)
    (x0 : Vec F S512x512 .bf16) (x1 : Vec F S512x4096/-w1-/ .bf16) (xs0 : Vec F S512x4096 .f32) : Vec F S512x4096 .f32 :=
  VS0.read (Elt F) (VS0.writes (Elt F) VS0.junk (kernelRun0_B c i arg2 harg2 arg3 harg3 arg4 harg4 arg5 harg5 hc0 hc1 x0 x1 xs0).2.1)
/-- The output window's buffer after case B: nothing is stored (the window is idle there); a placeholder nothing consults. -/
def out0_B (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : ¬cond0_0 i) (hc1 : ¬cond0_1 i)
    (x0 : Vec F S512x512 .bf16) (x1 : Vec F S512x4096/-w1-/ .bf16) (xs0 : Vec F S512x4096 .f32) : Vec F S512x4096 .bf16/-o-/ :=
  VO0.read (Elt F) (VO0.writes (Elt F) VO0.junk (kernelRun0_B c i arg2 harg2 arg3 harg3 arg4 harg4 arg5 harg5 hc0 hc1 x0 x1 xs0).1)

/-- The accumulator after case C: the case's stores read back. They cover it. -/
theorem scover0_C (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : ¬cond0_0 i) (hc1 : cond0_1 i)
    (x0 : Vec F S512x512 .bf16) (x1 : Vec F S512x4096/-w1-/ .bf16) (xs0 : Vec F S512x4096 .f32) (y : S512x4096.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S512x4096.size (by sl_kernel_rfl) y
def sout0_C (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : ¬cond0_0 i) (hc1 : cond0_1 i)
    (x0 : Vec F S512x512 .bf16) (x1 : Vec F S512x4096/-w1-/ .bf16) (xs0 : Vec F S512x4096 .f32) : Vec F S512x4096 .f32 :=
  VS0.read (Elt F) (VS0.writes (Elt F) VS0.junk (kernelRun0_C c i arg2 harg2 arg3 harg3 arg4 harg4 arg5 harg5 hc0 hc1 x0 x1 xs0).2.1)
/-- The output window's buffer after case C: the copy of the accumulator, read back. -/
def out0_C (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : ¬cond0_0 i) (hc1 : cond0_1 i)
    (x0 : Vec F S512x512 .bf16) (x1 : Vec F S512x4096/-w1-/ .bf16) (xs0 : Vec F S512x4096 .f32) : Vec F S512x4096 .bf16/-o-/ :=
  VO0.read (Elt F) (VO0.writes (Elt F) VO0.junk (kernelRun0_C c i arg2 harg2 arg3 harg3 arg4 harg4 arg5 harg5 hc0 hc1 x0 x1 xs0).1)

/-- At the last step the copy covers the output window's buffer. -/
theorem cover0_C (c : Dev nD) (i : grid0.Coords) (arg2 : Memref sig .tc .vmem S512x512 .bf16) (harg2 : arg2.IsWhole) (arg3 : Memref sig .tc .vmem S512x4096/-w1-/ .bf16) (harg3 : arg3.IsWhole) (arg4 : Memref sig .tc .vmem S512x4096 .bf16/-o-/) (harg4 : arg4.IsWhole) (arg5 : Memref sig .tc .vmem S512x4096 .f32) (harg5 : arg5.IsWhole) (hc0 : ¬cond0_0 i) (hc1 : cond0_1 i)
    (x0 : Vec F S512x512 .bf16) (x1 : Vec F S512x4096/-w1-/ .bf16) (xs0 : Vec F S512x4096 .f32) (y : S512x4096.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S512x4096.size (by sl_kernel_rfl) y

section
variable (V : (c : Dev nD) → (b : Ref sig .tc) → Buf (Elt F) ((c : Thread nD τ).loc b))

/-- What the output window's buffer and the accumulator hold after the body at position `n`: the case the position selects
    (first step, middle step, last step), run on the point's blocks, over what the position before left in the accumulator. -/
def outsAt0 (c : Dev nD) : (n : ℕ) → n < cfg0.N → Vec F S512x4096 .bf16/-o-/ × Vec F S512x4096 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)
theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what the point
    before left in it; beside it the other scoped buffers and the generator register, at anything. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ other0 c ∗ (∃ r, prngReg c r))
theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare ((outsAt0 V c n hn).2) ∗ other0 c ∗ (∃ r, prngReg c r)) := rfl
theorem PhiS0_pos (c : Dev nD) (n : ℕ) (h : n ≤ cfg0.N) (hz : n ≠ 0) :
    PhiS0 V c n h = iprop(owns (c : Thread nD τ) scM0 fullShare ((outsAt0 V c (n - 1) (by omega)).2) ∗ other0 c ∗ (∃ r, prngReg c r)) := by
  cases n with
  | zero => exact absurd rfl hz
  | succ n => rfl

/-- The pipeline's proof data on core `c`: the arrays as the region finds them; after the body at point `t` each input's buffer at
    its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The position's residue mod 8 says which case the point is in; the invariant hands the body the accumulator
    at what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A; (try dsimp only)
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_out (F := F) c) $$ HΦ
        icases HΦ' with ⟨HS0, Hoth, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A c _ _ _ _ _ _ _ _ _ _ _ _ _)
          isplitl [Hoth]; · iexact Hoth
          iexact Hg
        isplitl [Ho]; · iexact Ho
        isplitl [H0]; · iexact H0
        isplitl [H1]; · iexact H1
        iexists _; iexact H2
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      have hz : t.val ≠ 0 := by omega
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0]
          · unfold owns; iexists _; isplitr
            swap; · iexact HS0
            ipureintro; exact View.read_writes_of_cover _ _ _ _ _ (scover0_C c _ _ _ _ _ _ _ _ _ _ _ _ _ _)
          isplitl [Hoth]; · iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      have hz : t.val ≠ 0 := by omega
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_B c _ _ _ _ _ _ _ _ _ _ _ _ _ _)
          isplitl [Hoth]; · iexact Hoth
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
/-- After the last point the invariant gives back the accumulator at some contents: its named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ hne]
  iintro ⟨HS0, Hoth, Hg⟩
  iapply (PhiA0_in (F := F) c)
  isplitl [HS0]; · iexists _; iexact HS0
  isplitl [Hoth]; · iexact Hoth
  iexact Hg
end

end Cert.KernelIdeal.Hand

end
-- ==== Proof.KI.Shared1.lean ====
/- What the two kernel regions' runs share: each window's block at a grid point, the two conditions of the body decided over the grid
   (first contraction step, last contraction step), where the output window is idle, and the memrefs the body is called with. -/
import proofs.«107319_j2078764171786_1_alg».proof.Proof.Gen.KernelIdeal.Launch
import proofs.«107319_j2078764171786_1_alg».proof.Proof.Gen.KernelIdeal.Skeleton
import proofs.«107319_j2078764171786_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the windows' blocks, the grid's two conditions, the staging memrefs -/

section
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-- The body's first condition: the contraction step is the first (the accumulator is reset). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second condition: the contraction step is the last (the accumulator is written out). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
/-- Where the last step's condition fails the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from one grid point to the next. -/
abbrev scM1 : Memref sig .tc .vmem S512x4096 .f32 := Memref.whole cc1_scratch0
abbrev VS1 : View sig .tc .vmem S512x4096 .f32 := (scM1).view
/-- One staging buffer of the output window, through which its contents are stated. -/
abbrev VO1 : View sig .tc .vmem S512x4096 .f32 := (Memref.whole cc1_stg2_0 : Memref sig .tc .vmem S512x4096 .f32).view

/-- The core's scoped buffers that are neither this region's staging buffers nor its accumulator (the other region's), each whole at some contents. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region's invariant before its first point splits into the accumulator owned at some contents, the other scoped buffers, and
    the generator register at some state; -/
theorem PhiA1_out (c : Dev nD) :
    (Pipeline.ΦA spec1 c : sProp 𝕄) ⊢ iprop((∃ d, owns (c : Thread nD τ) scM1 fullShare d) ∗ other1 c ∗ (∃ r, prngReg c r)) := by
  unfold Pipeline.ΦA; rw [scopedRest1_eq]; simp only [scM1, owns_whole]; unfold other1
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg
/-- and is made of them again. -/
theorem PhiA1_in (c : Dev nD) :
    iprop((∃ d, owns (c : Thread nD τ) scM1 fullShare d) ∗ other1 c ∗ (∃ r, prngReg c r)) ⊢ (Pipeline.ΦA spec1 c : sProp 𝕄) := by
  unfold Pipeline.ΦA; rw [scopedRest1_eq]; simp only [scM1, owns_whole]; unfold other1
  iintro ⟨HS, ⟨H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.Hand

end
-- ==== Proof.KI.Frame.lean ====
/- The whole run of the program: three stretches of host operations, then the two kernel regions one right after the other
   (C = A·W accumulated over eight contraction steps, then the second product over C). The contents of every unscoped buffer at each
   boundary between two items are written as a fold from the launch memory: a host stretch leaves what its operations compute, a region
   leaves its windows' arrays at what its write-backs fold to and every other buffer as it found it. Each region is entered from
   every unscoped buffer held at the boundary's contents, and left at the next boundary's. The run terminates and every unscoped
   buffer ends at the last boundary's contents; in particular the two arguments end as launched and the result's buffer ends at
   what the second region's write-backs fold to. -/
import proofs.«107319_j2078764171786_1_alg».proof.Proof.KI.Region0
import proofs.«107319_j2078764171786_1_alg».proof.Proof.KI.Region1
import proofs.«107319_j2078764171786_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program

Before the three host stretches, after the first, after the second and after the third (region 0's entry) the contents are the launch
memory and what the stretches compute over it in turn. -/

/-- Region 0's entry contents, read at the TensorCore's references (what region 0's proof data take). -/
abbrev V3r : (c : Dev nD) → (b : Ref sig .tc) → Buf (Elt F) ((c : Thread nD τ).loc b) := fun c b => Gen.V3 m c b
/-- At region 0's exit: its windows' arrays at what the pipeline leaves (the inputs as entered, the output's write-backs folded),
    every other buffer as entered. This is also region 1's entry: no host operation stands between the two regions. -/
def W4 (c : Dev nD) : Valuation τ sig (Elt F) :=
  Pipeline.withArrays spec0 c (Gen.V3 m c) fun w => (dat0 (V3r m) c).arrAt w cfg0.N
theorem W4_arr (c : Dev nD) (w : Fin cfg0.W) :
    W4 m c (Proc.devRef .tc (Pipeline.arrRef spec0 w)) = (dat0 (V3r m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = Gen.V3 m c (Proc.devRef .tc b) := by
  unfold W4; exact Pipeline.withArrays_of_ne spec0 c _ _ b hb
/-- Region 0's output array ends at the fold of the region's write-backs. -/
theorem W4_v20 (c : Dev nD) : W4 m c (Proc.devRef .tc main_v20) = (dat0 (V3r m) c).arrAt 2 cfg0.N :=
  W4_arr m c 2
/-- The same read at the TensorCore's references (region 0's exit contents, region 1's entry contents). -/
abbrev V4r : (c : Dev nD) → (b : Ref sig .tc) → Buf (Elt F) ((c : Thread nD τ).loc b) := fun c b => W4 m c b
/-- At region 0's exit each of its arrays holds what the pipeline leaves and every other buffer what it held at entry. -/
theorem hF0 (c : Dev nD) (w : Fin cfg0.W) : (dat0 (V3r m) c).arrAt w cfg0.N = V4r m c (Pipeline.arrRef spec0 w) :=
  (W4_arr m c w).symm
theorem hrest0 (c : Dev nD) : ∀ b, b ∉ Finset.univ.image (Pipeline.arrRef spec0) → V4r m c b = V3r m c b :=
  fun b hb => W4_of_ne m c b fun w e => hb (Finset.mem_image.mpr ⟨w, Finset.mem_univ _, e⟩)

/-- At region 1's exit: its windows' arrays at what the pipeline leaves, every other buffer as entered. The last boundary. -/
def W5 (c : Dev nD) : Valuation τ sig (Elt F) :=
  Pipeline.withArrays spec1 c (W4 m c) fun w => (dat1 (V4r m) c).arrAt w cfg1.N
theorem W5_arr (c : Dev nD) (w : Fin cfg1.W) :
    W5 m c (Proc.devRef .tc (Pipeline.arrRef spec1 w)) = (dat1 (V4r m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The result's array ends at the fold of region 1's write-backs. -/
theorem W5_v21 (c : Dev nD) : W5 m c (Proc.devRef .tc main_v21) = (dat1 (V4r m) c).arrAt 2 cfg1.N :=
  W5_arr m c 2
/-- The same read at the TensorCore's references (region 1's exit contents). -/
abbrev V5r : (c : Dev nD) → (b : Ref sig .tc) → Buf (Elt F) ((c : Thread nD τ).loc b) := fun c b => W5 m c b
/-- At region 1's exit each of its arrays holds what the pipeline leaves and every other buffer what it held at entry. -/
theorem hF1 (c : Dev nD) (w : Fin cfg1.W) : (dat1 (V4r m) c).arrAt w cfg1.N = V5r m c (Pipeline.arrRef spec1 w) :=
  (W5_arr m c w).symm
theorem hrest1 (c : Dev nD) : ∀ b, b ∉ Finset.univ.image (Pipeline.arrRef spec1) → V5r m c b = V4r m c b :=
  fun b hb => W5_of_ne m c b fun w e => hb (Finset.mem_image.mpr ⟨w, Finset.mem_univ _, e⟩)

/-! ### The arguments end as launched: neither is an array of a window of either region, and no host operation writes one, so the
    fold at an argument's buffer walks back to the launch memory -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = Gen.V3 m c (Proc.devRef .tc main_arg0) := W4_of_ne m c main_arg0 (by decide)
    _ = Gen.V2 m c (Proc.devRef .tc main_arg0) := V3_of m c main_arg0 (by decide)
    _ = Gen.V1 m c (Proc.devRef .tc main_arg0) := V2_of m c main_arg0 (by decide)
    _ = Gen.V0 m c (Proc.devRef .tc main_arg0) := V1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = Gen.V3 m c (Proc.devRef .tc main_arg1) := W4_of_ne m c main_arg1 (by decide)
    _ = Gen.V2 m c (Proc.devRef .tc main_arg1) := V3_of m c main_arg1 (by decide)
    _ = Gen.V1 m c (Proc.devRef .tc main_arg1) := V2_of m c main_arg1 (by decide)
    _ = Gen.V0 m c (Proc.devRef .tc main_arg1) := V1_of m c main_arg1 (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3r m) c
  | ⟨1, _⟩ => fun c => dat1 (V4r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's invariant takes it
    in and gives it back) and the core owing nothing. -/
abbrev R (c : Dev nD) : sProp 𝕄 := iprop((∃ r, prngReg c r) ∗ ∃ W, owes (c : Thread nD τ) (0 : CellTallies nD τ sig Unit) W)
/-- A host stretch over the unscoped references from the contents `W`, `R` riding along: it leaves those references at what its
    operations compute over `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents, the generator register at
    some state. -/
abbrev Tₙ (c : Dev nD) : sProp 𝕄 := iprop(StableHlo.held (c : Thread nD τ) (Pipeline.ucRefs τ sig) (W5 m c) ∗ ∃ r, prngReg c r)

/-! ## The regions as items of the run -/

set_option backward.isDefEq.respectTransparency.types false in
/-- REGION 0 over the thread state: entered from every unscoped buffer at the contents after the third host stretch, left at `W4`.
    Its arrays split out of the unscoped buffers and are put back at the exit contents; the generator register and the scoped buffers
    no window stages go into the region's invariant (which names the accumulator's contents from the first point on) and come back
    out of it, the accumulator's contents forgotten; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3r m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V3r m) c)
    unfold Pipeline.ΦA
    iintro ⟨Hp, -, Hr⟩
    isplitl [Hr]; · iexact Hr
    iexact Hp
  hout c := by
    rw [Pipeline.ownSems0_none]
    refine (hout0 (V3r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3r m c) (V4r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W4` (what region 0 leaves), left at `W5` (what the
    launch reads at the end). The same routing as region 0's. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4r m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V4r m) c)
    unfold Pipeline.ΦA
    iintro ⟨Hp, -, Hr⟩
    isplitl [Hr]; · iexact Hr
    iexact Hp
  hout c := by
    rw [Pipeline.ownSems0_none]
    refine (hout1 (V4r m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4r m c) (V5r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's five items in order: a host item per stretch from its boundary's contents, then the two regions. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .region (reg1 m) ]
/-- The program IS the run of its items. -/
theorem main_run (c : Dev nD) : main (F := F) c = Pipeline.Seg.run (segs m) := (main_chain c).trans (by chain_rfl)

set_option backward.isDefEq.respectTransparency.types false in
/-- THE RUN: from any memory with zero counters, every weakly fair execution of the program on the TensorCores terminates, nothing
    faulting, and every final state has every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every final state has the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

/-- THE RESULT: every final state has the result's buffer at the fold of region 1's write-backs over region 0's exit contents, and
    the two argument arrays as launched. -/
theorem run_result : θ_run defs (onTc (τ := τ) (main (F := F))) ⟨m, fun _ => 0, ρ⟩ (fun r => ∀ c : Dev nD,
      r.2.mem ((c.tc : Thread nD τ).loc main_v21) = (dat1 (V4r m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v21 (by decide))).trans (W5_v21 m c),
     (h c _ (mem_uc main_arg0 (by decide))).trans (W5_main_arg0 m c),
     (h c _ (mem_uc main_arg1 (by decide))).trans (W5_main_arg1 m c)⟩) (run_all m ρ)

/-- info: 'Cert.KernelIdeal.Hand.run_all' depends on axioms: [propext, Classical.choice, Quot.sound] -/
#guard_msgs in #print axioms run_all
/-- info: 'Cert.KernelIdeal.Hand.frame' depends on axioms: [propext, Classical.choice, Quot.sound] -/
#guard_msgs in #print axioms frame
/-- info: 'Cert.KernelIdeal.Hand.run_result' depends on axioms: [propext, Classical.choice, Quot.sound] -/
#guard_msgs in #print axioms run_result

end Cert.KernelIdeal.Hand

end
-- ==== Proof.KI.Host.lean ====
/- The host operations that precede the two kernel regions of the kernel's program: the weight matrix they build,
   the conversions of the matrix and of the two arguments to bf16, and the identity of the matrix with the one the
   reference program builds. -/
import proofs.«107319_j2078764171786_1_alg».proof.Proof.Gen.KernelIdeal.Regions
import proofs.«107319_j2078764171786_1_alg».proof.Proof.RefRead
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Idealize.ShloMosaic.StableHlo

variable {F : FTy → Type} [FloatOps F]
variable (m : (ℓ : Loc nD τ sig) → Buf (Elt F) ℓ)

/-- Argument 0 converted to bf16. -/
theorem V3_v18 (c : Dev nD) :
    Gen.V3 m c (Proc.devRef .tc main_v18) = truncf .bf16 (m ((c : Thread nD τ).loc main_arg0)) bitsLt_bf16_f32 := by
  show StableHlo.after hostOps0_2 (Gen.V2 m c) (Proc.devRef .tc main_v18) = _
  after_results

/-- Argument 1 converted to bf16. -/
theorem V3_v19 (c : Dev nD) :
    Gen.V3 m c (Proc.devRef .tc main_v19) = truncf .bf16 (m ((c : Thread nD τ).loc main_arg1)) bitsLt_bf16_f32 := by
  show StableHlo.after hostOps0_2 (Gen.V2 m c) (Proc.devRef .tc main_v19) = _
  after_results

/-- The weight matrix the host operations build: at row `i`, column `j`, with `d = |j - i|` as a float,
    `k = exp (-(d * d) / 128)` where that exceeds `1e-10` and `0` elsewhere, squared. -/
def wmat : FVec F S4096x4096 .f32 :=
  let r : IVec S4096 32 := iotaInDim S4096 32 0
  let col : IVec S4096x4096 32 := broadcastInDim S4096x4096 ![0, 1] Gen.bcast_S1x4096_S4096x4096_0_1 (broadcastInDim S1x4096 ![1] Gen.bcast_S4096_S1x4096_1 r)
  let row : IVec S4096x4096 32 := broadcastInDim S4096x4096 ![0, 1] Gen.bcast_S4096x1_S4096x4096_0_1 (broadcastInDim S4096x1 ![0] Gen.bcast_S4096_S4096x1_0 r)
  let d : FVec F S4096x4096 .f32 := sitofp (F := F) .f32 (absi (subi col row))
  let e : FVec F S4096x4096 .f32 := Host.exp (F := F) (Host.divf (F := F) (Host.negf (F := F) (mulf d d)) (broadcastInDim S4096x4096 ![] Gen.bcast_S_S4096x4096 (constant (F := F) S_ .f32 0x43000000#32)))
  let k : FVec F S4096x4096 .f32 := select (cmpf (F := F) .ogt e (broadcastInDim S4096x4096 ![] Gen.bcast_S_S4096x4096 (constant (F := F) S_ .f32 0x2EDBE6FF#32))) e (broadcastInDim S4096x4096 ![] Gen.bcast_S_S4096x4096 (id (constant (F := F) S_ .f32 0x00000000#32)))
  mulf k k

/-- The weight matrix converted to bf16. -/
theorem V3_v17 (c : Dev nD) :
    Gen.V3 m c (Proc.devRef .tc main_v17) = truncf .bf16 (wmat (F := F)) bitsLt_bf16_f32 := by
  show StableHlo.after hostOps0_2 (StableHlo.after hostOps0_1 (StableHlo.after hostOps0 (Gen.V0 m c))) (Proc.devRef .tc main_v17) = _
  after_results_simp
  rfl

/-- The weight matrix is the one the reference program builds. -/
theorem wmat_eq_ref :
    (wmat (F := F) : Cert.KernelIdeal.S4096x4096.Idx → Elt F .f32) = Cert.ReferenceIdeal.ReadP.val_main_v16 (F := F) := by
  rfl

end Cert.KernelIdeal.Hand

end
-- ==== Proof.KI.RefSide.lean ====
/- The reference at the ideal values, read at an index: its result at row `i`, column `q` is the sum over `k` of (row `i` of the
   first argument against column `k` of the weight matrix) times entry `(q, k`) of the second argument — the product with the
   transposed second argument written out. -/
import proofs.«107319_j2078764171786_1_alg».proof.Proof.RefRead
import Idealize.ShloMosaic.Lib.ValueIdx

noncomputable section

namespace Cert.ReferenceIdeal.Hand

open Cert.ReferenceIdeal Cert.ReferenceIdeal.Gen Cert.ReferenceIdeal.ReadP Idealize.ShloMosaic Idealize.SL.Sem Idealize.ShloMosaic.ValueIdx

theorem ref_apply (A : (⟨S8192x4096, .f32⟩ : BufTy).Contents (Elt Ideal)) (B : (⟨S4096x4096, .f32⟩ : BufTy).Contents (Elt Ideal))
    (i : Fin 8192) (q : Fin 4096) :
    val_main_v19 (F := Ideal) A B (ix2 i q)
      = ∑ k : Fin 4096, (∑ j : Fin 4096, A (ix2 i j) * val_main_v16 (F := Ideal) (ix2 j k)) * B (ix2 q k) := by
  rw [val_main_v19_apply]
  refine Finset.sum_congr rfl fun k _ => ?_
  have e1 : lidx_main_v19 (ix2 i q) k = ix2 i k := funext fun a => Fin.ext (by
    match a with
    | ⟨0, _⟩ => rfl
    | ⟨1, _⟩ => rfl)
  have e2 : idx_main_v18 (ridx_main_v19 (ix2 i q) k) = ix2 q k := funext fun a => Fin.ext (by
    match a with
    | ⟨0, _⟩ => rfl
    | ⟨1, _⟩ => rfl)
  rw [val_main_v17_apply, val_main_v18_apply, e1, e2]
  congr 1
  refine Finset.sum_congr rfl fun j _ => ?_
  have e3 : lidx_main_v17 (ix2 i k) j = ix2 i j := funext fun a => Fin.ext (by
    match a with
    | ⟨0, _⟩ => rfl
    | ⟨1, _⟩ => rfl)
  have e4 : ridx_main_v17 (ix2 i k) j = ix2 j k := funext fun a => Fin.ext (by
    match a with
    | ⟨0, _⟩ => rfl
    | ⟨1, _⟩ => rfl)
  rw [e3, e4]

end Cert.ReferenceIdeal.Hand

end
-- ==== Proof.KI.Pieces0.lean ====
/- What each case of the first region's body leaves, as values: the accumulator after a first, a middle and a last
   contraction step, and the output block after the last step, each as the payload of the case's one covering store. -/
import proofs.«107319_j2078764171786_1_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

/-- The zero offsets, however spelt. -/
theorem hz0 : (![0, 0] : Fin 2 → Nat) = fun _ => 0 := funext fun a => by fin_cases a <;> rfl

/-- A middle step leaves in the accumulator what it held plus the step's block product. -/
theorem sout0_B_eq (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S512x4096 .f32) (harg5 : arg5.IsWhole) (hc0 : ¬cond0_0 i) (hc1 : ¬cond0_1 i)
    (x0 : Vec F S512x512 .bf16) (x1 : Vec F S512x4096 .bf16) (xs0 : Vec F S512x4096 .f32) :
    sout0_B c i arg2 harg2 arg3 harg3 arg4 harg4 arg5 harg5 hc0 hc1 x0 x1 xs0 = k0_pay2 xs0 x0 x1 := by
  unfold sout0_B
  rw [View.read_writes_eq_canon _ _ _ (scover0_B c i arg2 harg2 arg3 harg3 arg4 harg4 arg5 harg5 hc0 hc1 x0 x1 xs0)]
  unfold kernelRun0_B
  dsimp only
  sl_unfold_words
  rw [View.canon_unit_zero hz0]
  simp only [View.readAt_eq_ld, harg2.read_unread, harg3.read_unread, harg5.read_unread,
    View.ld_unit_zero (S := S512x4096) hz0, View.ld_unit_zero (S := S512x512) hz0]

/-- The last step leaves the same in the accumulator … -/
theorem sout0_C_eq (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S512x4096 .f32) (harg5 : arg5.IsWhole) (hc0 : ¬cond0_0 i) (hc1 : cond0_1 i)
    (x0 : Vec F S512x512 .bf16) (x1 : Vec F S512x4096 .bf16) (xs0 : Vec F S512x4096 .f32) :
    sout0_C c i arg2 harg2 arg3 harg3 arg4 harg4 arg5 harg5 hc0 hc1 x0 x1 xs0 = k0_pay2 xs0 x0 x1 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz0]
  simp only [View.readAt_eq_ld, harg2.read_unread, harg3.read_unread, harg5.read_unread,
    View.ld_unit_zero (S := S512x4096) hz0, View.ld_unit_zero (S := S512x512) hz0]

/-- … and its narrowed copy in the output block. -/
theorem out0_C_eq (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S512x4096 .f32) (harg5 : arg5.IsWhole) (hc0 : ¬cond0_0 i) (hc1 : cond0_1 i)
    (x0 : Vec F S512x512 .bf16) (x1 : Vec F S512x4096 .bf16) (xs0 : Vec F S512x4096 .f32) :
    out0_C c i arg2 harg2 arg3 harg3 arg4 harg4 arg5 harg5 hc0 hc1 x0 x1 xs0 = k0_pay3 (k0_pay2 xs0 x0 x1) := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero hz0]
  simp only [View.readCov_unit_zero (S := S512x4096) _ hz0, View.readAt_eq_ld, harg2.read_unread, harg3.read_unread,
    harg5.read_unread, View.ld_unit_zero (S := S512x4096) hz0, View.ld_unit_zero (S := S512x512) hz0]

/-- A first step stores the zero block, reads it back, and leaves the zero block plus the step's block product. -/
theorem sout0_A_eq (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S512x4096 .f32) (harg5 : arg5.IsWhole) (hc0 : cond0_0 i) (hc1 : ¬cond0_1 i)
    (x0 : Vec F S512x512 .bf16) (x1 : Vec F S512x4096 .bf16) :
    sout0_A c i arg2 harg2 arg3 harg3 arg4 harg4 arg5 harg5 hc0 hc1 x0 x1 = k0_pay2 (k0_pay1 (F := F)) x0 x1 := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S512x4096) hz0, View.readCov_unit_zero (S := S512x4096) _ hz0]
  simp only [View.readAt_eq_ld, harg2.read_unread, harg3.read_unread,
    View.ld_unit_zero (S := S512x4096) hz0, View.ld_unit_zero (S := S512x512) hz0]

end Cert.KernelIdeal.Hand

end
-- ==== Proof.KI.Pay.lean ====
/- The payloads of the two kernels read at an index, at the ideal values (extended reals): the zero splat, the
   accumulator plus a block product over the contracted coordinate, and the narrowing format change as the identity. -/
import proofs.«107319_j2078764171786_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.SL.Sem Idealize.ShloMosaic.ValueIdx

/-! ## The first kernel's product: rows of the left operand against columns of the right -/

theorem k0_lhs_0 (i : S512x4096.Idx) (q : dot_S512x512_S512x4096_S512x4096_1_0_0_1_n_n.contr.Idx) :
    (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide),
    dif_pos (show (0 : Fin S512x512.rank) ∈ dot_S512x512_S512x4096_S512x4096_1_0_0_1_n_n.lhsNonContracting by decide)]
  rfl
theorem k0_lhs_1 (i : S512x4096.Idx) (q : dot_S512x512_S512x4096_S512x4096_1_0_0_1_n_n.contr.Idx) :
    (dot_S512x512_S512x4096_S512x4096_1_0_0_1_n_n.lhsIdx i q 1).val = (q ⟨0, by decide⟩).val :=
  dot_S512x512_S512x4096_S512x4096_1_0_0_1_n_n.lhsIdx_val_of_single rfl i q
theorem k0_rhs_0 (i : S512x4096.Idx) (q : dot_S512x512_S512x4096_S512x4096_1_0_0_1_n_n.contr.Idx) :
    (dot_S512x512_S512x4096_S512x4096_1_0_0_1_n_n.rhsIdx i q 0).val = (q ⟨0, by decide⟩).val :=
  dot_S512x512_S512x4096_S512x4096_1_0_0_1_n_n.rhsIdx_val_of_single rfl i q
theorem k0_rhs_1 (i : S512x4096.Idx) (q : dot_S512x512_S512x4096_S512x4096_1_0_0_1_n_n.contr.Idx) :
    (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide),
    dif_pos (show (1 : Fin S512x4096.rank) ∈ dot_S512x512_S512x4096_S512x4096_1_0_0_1_n_n.rhsNonContracting by decide)]
  rfl

/-- The first kernel's product into the zero accumulator, at row `r` and column `p`: the sum over the contracted
    coordinate of the left operand's row entry times the right operand's column entry. -/
theorem k0_matmul_apply (x : FVec Ideal S512x512 .bf16) (w : FVec Ideal S512x4096 .bf16) (r : Fin 512) (p : Fin 4096) :
    FloatOps.matmul (F := Ideal) dot_S512x512_S512x4096_S512x4096_1_0_0_1_n_n none x w
        (constant (F := Ideal) S512x4096 .f32 0x00000000#32) (ix2 r p)
      = ∑ j : Fin 512, x (ix2 r j) * w (ix2 j p) := by
  rw [Ideal.matmul_constant_zero_apply,
    ← Equiv.sum_comp (contrEquiv1 dot_S512x512_S512x4096_S512x4096_1_0_0_1_n_n 512 rfl rfl).symm]
  refine Finset.sum_congr rfl fun k _ => ?_
  have hk := contrEquiv1_symm_val dot_S512x512_S512x4096_S512x4096_1_0_0_1_n_n 512 rfl rfl k
  have el : dot_S512x512_S512x4096_S512x4096_1_0_0_1_n_n.lhsIdx (ix2 r p)
      ((contrEquiv1 dot_S512x512_S512x4096_S512x4096_1_0_0_1_n_n 512 rfl rfl).symm k) = ix2 r k :=
    funext fun a => Fin.ext (by
      match a with
      | ⟨0, _⟩ => exact k0_lhs_0 _ _
      | ⟨1, _⟩ => exact (k0_lhs_1 _ _).trans hk)
  have er : dot_S512x512_S512x4096_S512x4096_1_0_0_1_n_n.rhsIdx (ix2 r p)
      ((contrEquiv1 dot_S512x512_S512x4096_S512x4096_1_0_0_1_n_n 512 rfl rfl).symm k) = ix2 k p :=
    funext fun a => Fin.ext (by
      match a with
      | ⟨0, _⟩ => exact (k0_rhs_0 _ _).trans hk
      | ⟨1, _⟩ => exact k0_rhs_1 _ _)
  rw [el, er]

/-- (P1) The first kernel's initial store is the zero splat. -/
theorem pay1_apply (r : Fin 512) (p : Fin 4096) : k0_pay1 (F := Ideal) (ix2 r p) = 0 := by
  unfold k0_pay1
  rw [shapeCast_self]
  show Ideal.ofBits .f32 0x00000000#32 = 0
  exact Ideal.ofBits_zero_f32

/-- (P2) The first kernel's accumulation step: the accumulator plus the block product. -/
theorem pay2_apply (acc : Vec Ideal S512x4096 .f32) (x : Vec Ideal S512x512 .bf16) (w : Vec Ideal S512x4096 .bf16)
    (r : Fin 512) (p : Fin 4096) :
    k0_pay2 (F := Ideal) acc x w (ix2 r p) = acc (ix2 r p) + ∑ j : Fin 512, x (ix2 r j) * w (ix2 j p) := by
  unfold k0_pay2
  rw [shapeCast_self, shapeCast_self, shapeCast_self, addf_apply]
  exact congrArg (acc (ix2 r p) + ·) (k0_matmul_apply x w r p)

/-- (P3) The first kernel's final narrowing is the identity on the extended reals. -/
theorem pay3_apply (v : Vec Ideal S512x4096 .f32) (r : Fin 512) (p : Fin 4096) :
    k0_pay3 (F := Ideal) v (ix2 r p) = v (ix2 r p) := rfl

/-! ## The second kernel's product: rows of the left operand against ROWS of the right (both contract their second axis) -/

theorem k1_lhs_0 (i : S512x4096.Idx) (q : dot_S512x512_S4096x512_S512x4096_1_1_0_0_n_n.contr.Idx) :
    (dot_S512x512_S4096x512_S512x4096_1_1_0_0_n_n.lhsIdx i q 0).val = (i 0).val := by
  unfold DotDims.lhsIdx
  rw [dif_neg (show ¬(0 : Fin S512x512.rank) ∈ dot_S512x512_S4096x512_S512x4096_1_1_0_0_n_n.lhsBatch by decide),
    dif_pos (show (0 : Fin S512x512.rank) ∈ dot_S512x512_S4096x512_S512x4096_1_1_0_0_n_n.lhsNonContracting by decide)]
  rfl
theorem k1_lhs_1 (i : S512x4096.Idx) (q : dot_S512x512_S4096x512_S512x4096_1_1_0_0_n_n.contr.Idx) :
    (dot_S512x512_S4096x512_S512x4096_1_1_0_0_n_n.lhsIdx i q 1).val = (q ⟨0, by decide⟩).val :=
  dot_S512x512_S4096x512_S512x4096_1_1_0_0_n_n.lhsIdx_val_of_single rfl i q
theorem k1_rhs_0 (i : S512x4096.Idx) (q : dot_S512x512_S4096x512_S512x4096_1_1_0_0_n_n.contr.Idx) :
    (dot_S512x512_S4096x512_S512x4096_1_1_0_0_n_n.rhsIdx i q 0).val = (i 1).val := by
  unfold DotDims.rhsIdx
  rw [dif_neg (show ¬(0 : Fin S4096x512.rank) ∈ dot_S512x512_S4096x512_S512x4096_1_1_0_0_n_n.rhsBatch by decide),
    dif_pos (show (0 : Fin S4096x512.rank) ∈ dot_S512x512_S4096x512_S512x4096_1_1_0_0_n_n.rhsNonContracting by decide)]
  rfl
theorem k1_rhs_1 (i : S512x4096.Idx) (q : dot_S512x512_S4096x512_S512x4096_1_1_0_0_n_n.contr.Idx) :
    (dot_S512x512_S4096x512_S512x4096_1_1_0_0_n_n.rhsIdx i q 1).val = (q ⟨0, by decide⟩).val :=
  dot_S512x512_S4096x512_S512x4096_1_1_0_0_n_n.rhsIdx_val_of_single rfl i q

/-- The second kernel's product into the zero accumulator, at row `r` and column `q`: the sum over the contracted
    coordinate of the left operand's row entry times the right operand's entry in ITS row `q`. -/
theorem k1_matmul_apply (x : FVec Ideal S512x512 .bf16) (b : FVec Ideal S4096x512 .bf16) (r : Fin 512) (q : Fin 4096) :
    FloatOps.matmul (F := Ideal) dot_S512x512_S4096x512_S512x4096_1_1_0_0_n_n none x b
        (constant (F := Ideal) S512x4096 .f32 0x00000000#32) (ix2 r q)
      = ∑ j : Fin 512, x (ix2 r j) * b (ix2 q j) := by
  rw [Ideal.matmul_constant_zero_apply,
    ← Equiv.sum_comp (contrEquiv1 dot_S512x512_S4096x512_S512x4096_1_1_0_0_n_n 512 rfl rfl).symm]
  refine Finset.sum_congr rfl fun k _ => ?_
  have hk := contrEquiv1_symm_val dot_S512x512_S4096x512_S512x4096_1_1_0_0_n_n 512 rfl rfl k
  have el : dot_S512x512_S4096x512_S512x4096_1_1_0_0_n_n.lhsIdx (ix2 r q)
      ((contrEquiv1 dot_S512x512_S4096x512_S512x4096_1_1_0_0_n_n 512 rfl rfl).symm k) = ix2 r k :=
    funext fun a => Fin.ext (by
      match a with
      | ⟨0, _⟩ => exact k1_lhs_0 _ _
      | ⟨1, _⟩ => exact (k1_lhs_1 _ _).trans hk)
  have er : dot_S512x512_S4096x512_S512x4096_1_1_0_0_n_n.rhsIdx (ix2 r q)
      ((contrEquiv1 dot_S512x512_S4096x512_S512x4096_1_1_0_0_n_n 512 rfl rfl).symm k) = ix2 q k :=
    funext fun a => Fin.ext (by
      match a with
      | ⟨0, _⟩ => exact k1_rhs_0 _ _
      | ⟨1, _⟩ => exact (k1_rhs_1 _ _).trans hk)
  rw [el, er]

/-- (P1 for the second kernel) Its initial store is the zero splat. -/
theorem k1_pay1_apply (r : Fin 512) (q : Fin 4096) : k1_pay1 (F := Ideal) (ix2 r q) = 0 := by
  unfold k1_pay1
  rw [shapeCast_self]
  show Ideal.ofBits .f32 0x00000000#32 = 0
  exact Ideal.ofBits_zero_f32

/-- (P4) The second kernel's accumulation step: the accumulator plus the block product against the right operand's rows. -/
theorem k1_pay2_apply (x : Vec Ideal S512x512 .bf16) (b : Vec Ideal S4096x512 .bf16) (acc : Vec Ideal S512x4096 .f32)
    (r : Fin 512) (q : Fin 4096) :
    k1_pay2 (F := Ideal) x b acc (ix2 r q) = acc (ix2 r q) + ∑ j : Fin 512, x (ix2 r j) * b (ix2 q j) := by
  unfold k1_pay2
  rw [shapeCast_self, shapeCast_self, shapeCast_self, addf_apply]
  exact congrArg (acc (ix2 r q) + ·) (k1_matmul_apply x b r q)

end Cert.KernelIdeal.Hand

end
-- ==== Proof.KI.Sums.lean ====
/- Regrouping a sum over 4096 terms into 8 consecutive blocks of 512, and the running partial sums block by block. -/
import Mathlib.Algebra.BigOperators.Fin
import Mathlib.Algebra.BigOperators.Group.Finset.Basic
import Mathlib.Data.Fintype.BigOperators

namespace Cert.KernelIdeal.Hand

open scoped BigOperators

variable {M : Type*} [AddCommMonoid M]

/-- A position below 4096 is a block number below 8 and an offset below 512. -/
def blockEquiv : Fin 8 × Fin 512 ≃ Fin 4096 where
  toFun q := ⟨512 * q.1.val + q.2.val, by have := q.1.isLt; have := q.2.isLt; omega⟩
  invFun k := (⟨k.val / 512, by have := k.isLt; omega⟩, ⟨k.val % 512, by omega⟩)
  left_inv q := by
    have h1 := q.1.isLt; have h2 := q.2.isLt
    refine Prod.ext (Fin.ext ?_) (Fin.ext ?_)
    · show (512 * q.1.val + q.2.val) / 512 = q.1.val
      omega
    · show (512 * q.1.val + q.2.val) % 512 = q.2.val
      omega
  right_inv k := by
    refine Fin.ext ?_
    show 512 * (k.val / 512) + k.val % 512 = k.val
    omega

/-- (S1) A sum over 4096 positions is the sum over the 8 blocks of the sums over each block's 512 positions. -/
theorem sum_blocks (f : Fin 4096 → M) :
    ∑ k : Fin 4096, f k = ∑ b : Fin 8, ∑ j : Fin 512, f ⟨512 * b.val + j.val, by have := b.isLt; have := j.isLt; omega⟩ := by
  rw [← Equiv.sum_comp blockEquiv f, Fintype.sum_prod_type]
  rfl

/-- (S2) The running sum after block `n`: zero plus the first block, then one more block at each step. -/
def psum (f : Fin 4096 → M) : (n : ℕ) → n < 8 → M
  | 0, _ => 0 + ∑ j : Fin 512, f ⟨j.val, by have := j.isLt; omega⟩
  | n + 1, h => psum f n (by omega) + ∑ j : Fin 512, f ⟨512 * (n + 1) + j.val, by have := j.isLt; omega⟩

theorem psum_zero (f : Fin 4096 → M) (h : 0 < 8) :
    psum f 0 h = 0 + ∑ j : Fin 512, f ⟨j.val, by have := j.isLt; omega⟩ := rfl

theorem psum_succ (f : Fin 4096 → M) (n : ℕ) (h : n + 1 < 8) :
    psum f (n + 1) h = psum f n (by omega) + ∑ j : Fin 512, f ⟨512 * (n + 1) + j.val, by have := j.isLt; omega⟩ := rfl

/-- The running sum after block `n` is the sum over the blocks up to `n`. -/
theorem psum_eq (f : Fin 4096 → M) : ∀ (n : ℕ) (h : n < 8),
    psum f n h = ∑ b : Fin (n + 1), ∑ j : Fin 512, f ⟨512 * b.val + j.val, by have := b.isLt; have := j.isLt; omega⟩
  | 0, h => by
    rw [psum_zero, zero_add, Fin.sum_univ_one]
    exact Finset.sum_congr rfl fun j _ => congrArg f (Fin.ext (by show j.val = 512 * 0 + j.val; omega))
  | n + 1, h => by
    rw [psum_succ, psum_eq f n (by omega)]
    exact (Fin.sum_univ_castSucc (fun b : Fin (n + 1 + 1) =>
      ∑ j : Fin 512, f ⟨512 * b.val + j.val, by have := b.isLt; have := j.isLt; omega⟩)).symm

/-- After the last block the running sum is the whole sum. -/
theorem psum_last (f : Fin 4096 → M) : psum f 7 (by decide) = ∑ k : Fin 4096, f k :=
  (psum_eq f 7 (by decide)).trans (sum_blocks f).symm

end Cert.KernelIdeal.Hand
-- ==== Proof.KI.Value0.lean ====
/- The value of the first kernel region: after its 128 points (16 row blocks by 8 contraction steps) the output array holds the
   product of the two operands, index by index. The accumulator after each point is a running sum over the contraction's blocks
   of 512 (by induction on the position); a last step writes the whole sum back; the sixteen written-back row blocks cover the array. -/
import proofs.«107319_j2078764171786_1_alg».proof.Proof.KI.Pieces0
import proofs.«107319_j2078764171786_1_alg».proof.Proof.KI.Pay
import proofs.«107319_j2078764171786_1_alg».proof.Proof.KI.Sums
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

variable (V : (c : Dev nD) → (b : Ref sig .tc) → Buf (Elt Ideal) ((c : Thread nD τ).loc b))

/-! ## The operands, and the blocks the windows stage -/

/-- The left operand (8192 rows, 4096 columns) as the region finds it. -/
abbrev lhsArr (c : Dev nD) : S8192x4096.Idx → EReal := V c main_v18
/-- The right operand (4096 rows, 4096 columns) as the region finds it. -/
abbrev rhsArr (c : Dev nD) : S4096x4096.Idx → EReal := V c main_v17
/-- The left operand's block at a point: 512 rows by 512 columns. -/
abbrev xblk (c : Dev nD) (t : Fin cfg0.N) : Vec Ideal S512x512 .bf16 := iblk0 V c 0 t
/-- The right operand's block at a point: 512 rows by all 4096 columns. -/
abbrev wblk (c : Dev nD) (t : Fin cfg0.N) : Vec Ideal S512x4096 .bf16 := iblk0 V c 1 t

/-- The index maps over the grid: point `t` is contraction step `t % 8` of row block `t / 8`. -/
theorem index_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The left block at point `t` is rows `512 (t / 8) …`, columns `512 (t % 8) …` of the left operand. -/
theorem xblk_apply (c : Dev nD) (t : Fin cfg0.N) (r j : Fin 512) (i : Fin 8192) (k : Fin 4096)
    (hi : i.val = 512 * (t.val / 8) + r.val) (hk : k.val = 512 * (t.val % 8) + j.val) :
    xblk V c t (ix2 r j) = lhsArr V c (ix2 i k) := by
  obtain ⟨e0, e1, -⟩ := index_facts0 t
  show iblk0 V c 0 t (ix2 r j) = V c main_v18 (ix2 i k)
  unfold iblk0
  rw [View.read_apply]
  show V c main_v18 _ = V c main_v18 _
  congr 1
  funext a
  apply Fin.ext
  match a with
  | ⟨0, _⟩ => show win0_0.index t 0 * 512 + 1 * r.val = i.val; rw [e0, hi]; omega
  | ⟨1, _⟩ => show win0_0.index t 1 * 512 + 1 * j.val = k.val; rw [e1, hk]; omega

/-- The right block at point `t` is rows `512 (t % 8) …`, all columns, of the right operand. -/
theorem wblk_apply (c : Dev nD) (t : Fin cfg0.N) (j : Fin 512) (p : Fin 4096) (k : Fin 4096)
    (hk : k.val = 512 * (t.val % 8) + j.val) :
    wblk V c t (ix2 j p) = rhsArr V c (ix2 k p) := by
  obtain ⟨-, -, e0, e1, -⟩ := index_facts0 t
  show iblk0 V c 1 t (ix2 j p) = V c main_v17 (ix2 k p)
  unfold iblk0
  rw [View.read_apply]
  show V c main_v17 _ = V c main_v17 _
  congr 1
  funext a
  apply Fin.ext
  match a with
  | ⟨0, _⟩ => show win0_1.index t 0 * 512 + 1 * j.val = k.val; rw [e0, hk]; omega
  | ⟨1, _⟩ => show win0_1.index t 1 * 4096 + 1 * p.val = p.val; rw [e1]; omega

/-! ## One point's update of the accumulator, at an index -/

/-- The running sum at equal functions and equal block numbers. -/
theorem psum_congr {M : Type*} [AddCommMonoid M] {f g : Fin 4096 → M} (hfg : f = g) {a b : ℕ} (hab : a = b)
    (ha : a < 8) (hb : b < 8) : psum f a ha = psum g b hb := by
  subst hfg; subst hab; rfl

/-- A first contraction step leaves the first block's partial sum. -/
theorem step_first (x : Vec Ideal S512x512 .bf16) (w : Vec Ideal S512x4096 .bf16) (f : Fin 4096 → EReal)
    (r : Fin 512) (p : Fin 4096) (k : ℕ) (hk8 : k < 8) (hk : k = 0)
    (hx : ∀ j : Fin 512, x (ix2 r j) * w (ix2 j p) = f ⟨512 * k + j.val, by have := j.isLt; omega⟩) :
    k0_pay2 (F := Ideal) (k0_pay1 (F := Ideal)) x w (ix2 r p) = psum f k hk8 := by
  subst hk
  refine (pay2_apply (k0_pay1 (F := Ideal)) x w r p).trans ?_
  refine (congrArg₂ (· + ·) (pay1_apply r p) (Finset.sum_congr rfl fun j _ => hx j)).trans ?_
  refine (psum_zero f hk8).symm ▸ ?_
  exact congrArg (0 + ·) (Finset.sum_congr rfl fun j _ => congrArg f (Fin.ext (by show 512 * 0 + j.val = j.val; omega)))

/-- A later contraction step adds its block's partial sum to what the step before left. -/
theorem step_next (acc : Vec Ideal S512x4096 .f32) (x : Vec Ideal S512x512 .bf16) (w : Vec Ideal S512x4096 .bf16)
    (f : Fin 4096 → EReal) (r : Fin 512) (p : Fin 4096) (k m : ℕ) (hk8 : k < 8) (hk : k = m + 1)
    (hacc : acc (ix2 r p) = psum f m (by omega))
    (hx : ∀ j : Fin 512, x (ix2 r j) * w (ix2 j p) = f ⟨512 * k + j.val, by have := j.isLt; omega⟩) :
    k0_pay2 (F := Ideal) acc x w (ix2 r p) = psum f k hk8 := by
  subst hk
  refine (pay2_apply acc x w r p).trans ?_
  exact congrArg₂ (· + ·) hacc (Finset.sum_congr rfl fun j _ => hx j)

/-! ## The accumulator after every point -/

/-- The output row that row `r` of the block at position `n` is. -/
def rowAt (n : ℕ) (hn : n < cfg0.N) (r : Fin 512) : Fin 8192 :=
  ⟨512 * (n / 8) + r.val, by have : cfg0.N = 128 := N_0; have := r.isLt; omega⟩

/-- The products along the contraction for output row `i` and column `p`. -/
def prodAt (c : Dev nD) (i : Fin 8192) (p : Fin 4096) : Fin 4096 → EReal :=
  fun k => lhsArr V c (ix2 i k) * rhsArr V c (ix2 k p)

/-- The products of the two blocks at point `t` are the products of the operands over the step's 512 positions. -/
theorem block_prod (c : Dev nD) (t : Fin cfg0.N) (r : Fin 512) (p : Fin 4096) (j : Fin 512) :
    xblk V c t (ix2 r j) * wblk V c t (ix2 j p)
      = prodAt V c (rowAt t.val t.isLt r) p ⟨512 * (t.val % 8) + j.val, by have := j.isLt; omega⟩ :=
  congrArg₂ (· * ·)
    (xblk_apply V c t r j (rowAt t.val t.isLt r) ⟨512 * (t.val % 8) + j.val, by have := j.isLt; omega⟩ rfl rfl)
    (wblk_apply V c t j p ⟨512 * (t.val % 8) + j.val, by have := j.isLt; omega⟩ rfl)

/-- At a first contraction step the accumulator holds the first block's partial sum of the point's row block. -/
theorem acc_first (c : Dev nD) (t : Fin cfg0.N) (h0 : t.val % 8 = 0) (r : Fin 512) (p : Fin 4096) :
    (outsAt0 V c t.val t.isLt).2 (ix2 r p)
      = psum (prodAt V c (rowAt t.val t.isLt r) p) (t.val % 8) (Nat.mod_lt _ (by decide)) := by
  have h1 : ¬t.val % 8 = 7 := by omega
  rw [outsAt0_A V c t h0 h1]
  dsimp only
  refine (congrFun (sout0_A_eq (F := Ideal) c (grid0.coords t) (ms0_0 t) (hs0_0 t) (ms0_1 t) (hs0_1 t) (ms0_2 t) (hs0_2 t)
    scM0 (Memref.isWhole_whole _) ((hcond0_0 t).mpr h0) (fun h => h1 ((hcond0_1 t).mp h)) (xblk V c t) (wblk V c t)) (ix2 r p)).trans ?_
  exact step_first (xblk V c t) (wblk V c t) (prodAt V c (rowAt t.val t.isLt r) p) r p (t.val % 8)
    (Nat.mod_lt _ (by decide)) h0 (fun j => block_prod V c t r p j)

/-- At a later contraction step it holds one more block's partial sum than after the point before. -/
theorem acc_next (c : Dev nD) (t : Fin cfg0.N) (h0 : ¬t.val % 8 = 0) (r : Fin 512) (p : Fin 4096)
    (ih : (outsAt0 V c (t.val - 1) (Nat.lt_of_le_of_lt (Nat.sub_le _ _) t.isLt)).2 (ix2 r p)
      = psum (prodAt V c (rowAt t.val t.isLt r) p) (t.val % 8 - 1) (by omega)) :
    (outsAt0 V c t.val t.isLt).2 (ix2 r p)
      = psum (prodAt V c (rowAt t.val t.isLt r) p) (t.val % 8) (Nat.mod_lt _ (by decide)) := by
  by_cases h1 : t.val % 8 = 7
  · rw [outsAt0_C V c t h0 h1]
    dsimp only
    refine (congrFun (sout0_C_eq (F := Ideal) c (grid0.coords t) (ms0_0 t) (hs0_0 t) (ms0_1 t) (hs0_1 t) (ms0_2 t) (hs0_2 t)
      scM0 (Memref.isWhole_whole _) (fun h => h0 ((hcond0_0 t).mp h)) ((hcond0_1 t).mpr h1) (xblk V c t) (wblk V c t)
      (outsAt0 V c (t.val - 1) (Nat.lt_of_le_of_lt (Nat.sub_le _ _) t.isLt)).2) (ix2 r p)).trans ?_
    exact step_next (outsAt0 V c (t.val - 1) (Nat.lt_of_le_of_lt (Nat.sub_le _ _) t.isLt)).2 (xblk V c t) (wblk V c t)
      (prodAt V c (rowAt t.val t.isLt r) p) r p (t.val % 8) (t.val % 8 - 1) (Nat.mod_lt _ (by decide)) (by omega) ih
      (fun j => block_prod V c t r p j)
  · rw [outsAt0_B V c t h0 h1]
    dsimp only
    refine (congrFun (sout0_B_eq (F := Ideal) c (grid0.coords t) (ms0_0 t) (hs0_0 t) (ms0_1 t) (hs0_1 t) (ms0_2 t) (hs0_2 t)
      scM0 (Memref.isWhole_whole _) (fun h => h0 ((hcond0_0 t).mp h)) (fun h => h1 ((hcond0_1 t).mp h)) (xblk V c t) (wblk V c t)
      (outsAt0 V c (t.val - 1) (Nat.lt_of_le_of_lt (Nat.sub_le _ _) t.isLt)).2) (ix2 r p)).trans ?_
    exact step_next (outsAt0 V c (t.val - 1) (Nat.lt_of_le_of_lt (Nat.sub_le _ _) t.isLt)).2 (xblk V c t) (wblk V c t)
      (prodAt V c (rowAt t.val t.isLt r) p) r p (t.val % 8) (t.val % 8 - 1) (Nat.mod_lt _ (by decide)) (by omega) ih
      (fun j => block_prod V c t r p j)

/-- THE INVARIANT: after position `n` the accumulator holds, at row `r` and column `p`, the partial sum over the first
    `n % 8 + 1` blocks of the contraction for output row `512 (n / 8) + r`. By induction on the position. -/
theorem acc_eq (c : Dev nD) : ∀ (n : ℕ) (hn : n < cfg0.N) (r : Fin 512) (p : Fin 4096),
    (outsAt0 V c n hn).2 (ix2 r p) = psum (prodAt V c (rowAt n hn r) p) (n % 8) (Nat.mod_lt _ (by decide))
  | 0, hn, r, p => acc_first V c ⟨0, hn⟩ rfl r p
  | n + 1, hn, r, p => by
    by_cases h0 : (n + 1) % 8 = 0
    · exact acc_first V c ⟨n + 1, hn⟩ h0 r p
    · refine acc_next V c ⟨n + 1, hn⟩ h0 r p ?_
      refine (acc_eq c n (Nat.lt_of_succ_lt hn) r p).trans ?_
      refine psum_congr (congrArg (fun i => prodAt V c i p) (Fin.ext ?_)) ?_ _ _
      · show 512 * (n / 8) + r.val = 512 * ((n + 1) / 8) + r.val
        omega
      · show n % 8 = (n + 1) % 8 - 1
        omega

/-! ## What the last step writes back, and the output array after the region -/

/-- The product of the two operands, index by index. -/
def C0 (c : Dev nD) : S8192x4096.Idx → EReal :=
  fun y => ∑ k : Fin 4096, lhsArr V c (ix2 (n0 := 8192) (y 0) k) * rhsArr V c (ix2 (n1 := 4096) k (y 1))

theorem C0_apply (c : Dev nD) (i : Fin 8192) (p : Fin 4096) :
    C0 V c (ix2 i p) = ∑ k : Fin 4096, lhsArr V c (ix2 i k) * rhsArr V c (ix2 k p) := rfl

/-- At a last contraction step the output block holds the whole sum along the contraction. -/
theorem out_last (c : Dev nD) (t : Fin cfg0.N) (h7 : t.val % 8 = 7) (r : Fin 512) (p : Fin 4096) :
    (outsAt0 V c t.val t.isLt).1 (ix2 r p) = ∑ k : Fin 4096, prodAt V c (rowAt t.val t.isLt r) p k := by
  have h0 : ¬t.val % 8 = 0 := by omega
  have hacc := acc_eq V c t.val t.isLt r p
  rw [outsAt0_C V c t h0 h7] at hacc ⊢
  dsimp only at hacc ⊢
  refine (congrFun (out0_C_eq (F := Ideal) c (grid0.coords t) (ms0_0 t) (hs0_0 t) (ms0_1 t) (hs0_1 t) (ms0_2 t) (hs0_2 t)
    scM0 (Memref.isWhole_whole _) (fun h => h0 ((hcond0_0 t).mp h)) ((hcond0_1 t).mpr h7) (xblk V c t) (wblk V c t)
    (outsAt0 V c (t.val - 1) (Nat.lt_of_le_of_lt (Nat.sub_le _ _) t.isLt)).2) (ix2 r p)).trans ?_
  refine (pay3_apply (k0_pay2 (F := Ideal) (outsAt0 V c (t.val - 1) (Nat.lt_of_le_of_lt (Nat.sub_le _ _) t.isLt)).2
    (xblk V c t) (wblk V c t)) r p).trans ?_
  refine (congrFun (sout0_C_eq (F := Ideal) c (grid0.coords t) (ms0_0 t) (hs0_0 t) (ms0_1 t) (hs0_1 t) (ms0_2 t) (hs0_2 t)
    scM0 (Memref.isWhole_whole _) (fun h => h0 ((hcond0_0 t).mp h)) ((hcond0_1 t).mpr h7) (xblk V c t) (wblk V c t)
    (outsAt0 V c (t.val - 1) (Nat.lt_of_le_of_lt (Nat.sub_le _ _) t.isLt)).2) (ix2 r p)).symm.trans ?_
  refine hacc.trans ?_
  exact (psum_congr rfl h7 _ (by decide)).trans (psum_last _)

/-- WHAT A LAST STEP WRITES BACK is its block of the product. -/
theorem flushed_eq0 (c : Dev nD) (t : Fin cfg0.N) (hf : (cfg0.win 2).flush t = true) :
    (dat0 (F := Ideal) V c).flushed 2 t = ((cfg0.win 2).blk t).view.read (Elt Ideal) (C0 V c) := by
  have h7 : t.val % 8 = 7 := (flush0_2 t).mp hf
  obtain ⟨-, -, -, -, e0, e1⟩ := index_facts0 t
  show (cfg0.win 2).cut (grid0.coords t) ((dat0 (F := Ideal) V c).after 2 t) = _
  rw [after0_2]
  funext j
  obtain ⟨r, p, rfl⟩ : ∃ (r : Fin 512) (p : Fin 4096), j = ix2 r p := ⟨j 0, j 1, eq_ix2 j⟩
  show (outsAt0 V c t.val t.isLt).1 (ix2 r p) = C0 V c (((cfg0.win 2).blk t).view.emb (ix2 r p))
  have hemb : ((cfg0.win 2).blk t).view.emb (ix2 r p) = ix2 (rowAt t.val t.isLt r) p := by
    funext a
    apply Fin.ext
    match a with
    | ⟨0, _⟩ => show win0_2.index t 0 * 512 + 1 * r.val = 512 * (t.val / 8) + r.val; rw [e0]; omega
    | ⟨1, _⟩ => show win0_2.index t 1 * 4096 + 1 * p.val = p.val; rw [e1]; omega
  rw [hemb]
  exact out_last V c t h7 r p

/-- An index of the output array is in point `t`'s block iff each coordinate is in the block's range on its axis. -/
theorem mem_blk0 (t : Fin cfg0.N) (i : S8192x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v20).slice (win0_2.rect t)).set ↔ _
  rw [View.set_slice_whole, Rect.mem_set_unit]
  exact Iff.rfl

/-- THE OUTPUT ARRAY after the region is the product: the sixteen last steps' row blocks cover it. -/
theorem final0 (c : Dev nD) : (dat0 (F := Ideal) V c).arrAt 2 cfg0.N = C0 V c :=
  (dat0 (F := Ideal) V c).arrAt_eq_of_cover 2 (C0 V c) (flushed_eq0 V c) fun i => by
    have hi0 : (i 0).val < 8192 := (i 0).isLt
    have hi1 : (i 1).val < 4096 := (i 1).isLt
    have hN : cfg0.N = 128 := N_0
    obtain ⟨t, ht⟩ : ∃ t : Fin cfg0.N, t.val = 8 * ((i 0).val / 512) + 7 := ⟨⟨8 * ((i 0).val / 512) + 7, by omega⟩, rfl⟩
    obtain ⟨-, -, -, -, e0, e1⟩ := index_facts0 t
    refine ⟨t, (flush0_2 t).mpr (by omega), ?_⟩
    rw [mem_blk0]
    intro a
    match a with
    | ⟨0, _⟩ =>
      show win0_2.index t 0 * 512 ≤ (i 0).val ∧ (i 0).val < win0_2.index t 0 * 512 + 512
      rw [e0]; omega
    | ⟨1, _⟩ =>
      show win0_2.index t 1 * 4096 ≤ (i 1).val ∧ (i 1).val < win0_2.index t 1 * 4096 + 4096
      rw [e1]; omega

/-- The output array after the region, at its literal type. -/
abbrev outArr0 (c : Dev nD) : S8192x4096.Idx → EReal := (dat0 (F := Ideal) V c).arrAt 2 cfg0.N

/-- THE OUTPUT ARRAY after the region, entry by entry: row `i` of the left operand against column `k` of the right. -/
theorem final0_apply (c : Dev nD) (i : Fin 8192) (k : Fin 4096) :
    outArr0 V c (ix2 i k) = ∑ j : Fin 4096, lhsArr V c (ix2 i j) * rhsArr V c (ix2 j k) :=
  (congrFun (final0 V c) (ix2 i k)).trans (C0_apply V c i k)

end Cert.KernelIdeal.Hand

end
-- ==== Proof.KI.Pieces1.lean ====
/- What region 1's kernel leaves, case by case, as values: at the first contraction step the zero block plus the step's product,
   at a later step what the accumulator held plus the step's product; at the last step the output window's buffer receives the
   accumulator itself. -/
import proofs.«107319_j2078764171786_1_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole-block access are zero on both axes. -/
theorem hz2 : (![0, 0] : Fin 2 → Nat) = fun _ => 0 := funext fun a => by fin_cases a <;> rfl

/-- A middle step leaves in the accumulator what it held plus the step's product. -/
theorem sout1_B_eq (c : Dev nD) (i : grid1.Coords) (arg2 : Memref sig .tc .vmem S512x512 .bf16) (harg2 : arg2.IsWhole) (arg3 : Memref sig .tc .vmem S4096x512 .bf16) (harg3 : arg3.IsWhole) (arg4 : Memref sig .tc .vmem S512x4096 .f32) (harg4 : arg4.IsWhole) (arg5 : Memref sig .tc .vmem S512x4096 .f32) (harg5 : arg5.IsWhole) (hc0 : ¬cond1_0 i) (hc1 : ¬cond1_1 i)
    (x0 : Vec F S512x512 .bf16) (x1 : Vec F S4096x512 .bf16) (xs0 : Vec F S512x4096 .f32) :
    sout1_B c i arg2 harg2 arg3 harg3 arg4 harg4 arg5 harg5 hc0 hc1 x0 x1 xs0 = k1_pay2 x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  sl_unfold_words
  rw [View.canon_unit_zero (S := S512x4096) hz2]
  simp only [View.readAt_eq_ld, harg2.read_unread, harg3.read_unread, harg5.read_unread, View.ld_unit_zero (S := S512x512) hz2, View.ld_unit_zero (S := S4096x512) hz2, View.ld_unit_zero (S := S512x4096) hz2]

/-- The last step leaves in the accumulator what it held plus the step's product, -/
theorem sout1_C_eq (c : Dev nD) (i : grid1.Coords) (arg2 : Memref sig .tc .vmem S512x512 .bf16) (harg2 : arg2.IsWhole) (arg3 : Memref sig .tc .vmem S4096x512 .bf16) (harg3 : arg3.IsWhole) (arg4 : Memref sig .tc .vmem S512x4096 .f32) (harg4 : arg4.IsWhole) (arg5 : Memref sig .tc .vmem S512x4096 .f32) (harg5 : arg5.IsWhole) (hc0 : ¬cond1_0 i) (hc1 : cond1_1 i)
    (x0 : Vec F S512x512 .bf16) (x1 : Vec F S4096x512 .bf16) (xs0 : Vec F S512x4096 .f32) :
    sout1_C c i arg2 harg2 arg3 harg3 arg4 harg4 arg5 harg5 hc0 hc1 x0 x1 xs0 = k1_pay2 x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero (S := S512x4096) hz2]
  simp only [View.readAt_eq_ld, harg2.read_unread, harg3.read_unread, harg5.read_unread, View.ld_unit_zero (S := S512x512) hz2, View.ld_unit_zero (S := S4096x512) hz2, View.ld_unit_zero (S := S512x4096) hz2]

/-- and copies exactly that into the output window's buffer. -/
theorem out1_C_eq (c : Dev nD) (i : grid1.Coords) (arg2 : Memref sig .tc .vmem S512x512 .bf16) (harg2 : arg2.IsWhole) (arg3 : Memref sig .tc .vmem S4096x512 .bf16) (harg3 : arg3.IsWhole) (arg4 : Memref sig .tc .vmem S512x4096 .f32) (harg4 : arg4.IsWhole) (arg5 : Memref sig .tc .vmem S512x4096 .f32) (harg5 : arg5.IsWhole) (hc0 : ¬cond1_0 i) (hc1 : cond1_1 i)
    (x0 : Vec F S512x512 .bf16) (x1 : Vec F S4096x512 .bf16) (xs0 : Vec F S512x4096 .f32) :
    out1_C c i arg2 harg2 arg3 harg3 arg4 harg4 arg5 harg5 hc0 hc1 x0 x1 xs0 = k1_pay2 x0 x1 xs0 := by
  unfold out1_C
  rw [View.read_writes_eq_canon _ _ _ (cover1_C c i arg2 harg2 arg3 harg3 arg4 harg4 arg5 harg5 hc0 hc1 x0 x1 xs0)]
  unfold kernelRun1_C
  dsimp only
  sl_unfold_words
  rw [View.canon_unit_zero (S := S512x4096) hz2, View.readCov_unit_zero (S := S512x4096) _ hz2]
  simp only [View.readAt_eq_ld, harg2.read_unread, harg3.read_unread, harg5.read_unread, View.ld_unit_zero (S := S512x512) hz2, View.ld_unit_zero (S := S4096x512) hz2, View.ld_unit_zero (S := S512x4096) hz2]

/-- The first step resets the accumulator to the zero block and leaves in it the zero block plus the step's product. -/
theorem sout1_A_eq (c : Dev nD) (i : grid1.Coords) (arg2 : Memref sig .tc .vmem S512x512 .bf16) (harg2 : arg2.IsWhole) (arg3 : Memref sig .tc .vmem S4096x512 .bf16) (harg3 : arg3.IsWhole) (arg4 : Memref sig .tc .vmem S512x4096 .f32) (harg4 : arg4.IsWhole) (arg5 : Memref sig .tc .vmem S512x4096 .f32) (harg5 : arg5.IsWhole) (hc0 : cond1_0 i) (hc1 : ¬cond1_1 i)
    (x0 : Vec F S512x512 .bf16) (x1 : Vec F S4096x512 .bf16) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S512x4096) hz2, View.readCov_unit_zero (S := S512x4096) _ hz2]
  simp only [View.readAt_eq_ld, harg2.read_unread, harg3.read_unread, View.readCov_unit_zero (S := S512x4096) _ hz2, View.ld_unit_zero (S := S512x512) hz2, View.ld_unit_zero (S := S4096x512) hz2, View.ld_unit_zero (S := S512x4096) hz2]

end Cert.KernelIdeal.Hand

end
-- ==== Proof.KI.Value1.lean ====
/- Region 1 (out = C·Bᵀ) read as a value at the extended reals: after contraction step s of row block b the accumulator holds,
   at row r and column q, the sum over the first s + 1 blocks of 512 of the contracted coordinate k of C (512 b + r, k) · B (q, k);
   after step 7 that is the whole sum over k, it is what the last step writes back to rows 512 b … 512 b + 511 of the output, and the
   sixteen row blocks written back cover the output array. -/
import proofs.«107319_j2078764171786_1_alg».proof.Proof.KI.Pieces1
import proofs.«107319_j2078764171786_1_alg».proof.Proof.KI.Pay
import proofs.«107319_j2078764171786_1_alg».proof.Proof.KI.Sums
import Idealize.ShloMosaic.Lib.Pipeline.Value
import Idealize.ShloMosaic.Lib.ValueIdx

set_option maxRecDepth 16384

noncomputable section

namespace Cert.KernelIdeal.Hand.R1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The left operand C as the region finds it: 8192 rows, 4096 contracted coordinates. -/
abbrev Carr (c : Dev nD) : Vec Ideal S8192x4096 .bf16 := V c main_v20
/-- The right operand B as the region finds it: 4096 rows (the output's columns), 4096 contracted coordinates. -/
abbrev Barr (c : Dev nD) : Vec Ideal S4096x4096 .bf16 := V c main_v19
/-- The block of C staged at point `t`. -/
abbrev xblk (c : Dev nD) (t : Fin cfg1.N) : Vec Ideal S512x512 .bf16 := iblk1 V c 0 t
/-- The block of B staged at point `t`. -/
abbrev bblk (c : Dev nD) (t : Fin cfg1.N) : Vec Ideal S4096x512 .bf16 := iblk1 V c 1 t

/-- An entry of C by natural coordinates. -/
abbrev Cat (c : Dev nD) (i k : ℕ) (hi : i < 8192) (hk : k < 4096) : EReal := Carr V c (ix2 ⟨i, hi⟩ ⟨k, hk⟩)
/-- An entry of B by natural coordinates. -/
abbrev Bat (c : Dev nD) (q k : ℕ) (hq : q < 4096) (hk : k < 4096) : EReal := Barr V c (ix2 ⟨q, hq⟩ ⟨k, hk⟩)
theorem Cat_congr (c : Dev nD) {i i' k k' : ℕ} (ei : i = i') (ek : k = k') (hi : i < 8192) (hk : k < 4096) (hi' : i' < 8192) (hk' : k' < 4096) :
    Cat V c i k hi hk = Cat V c i' k' hi' hk' := by subst ei; subst ek; rfl
theorem Bat_congr (c : Dev nD) {q q' k k' : ℕ} (eq : q = q') (ek : k = k') (hq : q < 4096) (hk : k < 4096) (hq' : q' < 4096) (hk' : k' < 4096) :
    Bat V c q k hq hk = Bat V c q' k' hq' hk' := by subst eq; subst ek; rfl

/-- The windows' block indices over the grid: point `t` is contraction step `t % 8` of row block `t / 8`. -/
theorem idx1 : ∀ t : Fin cfg1.N, win1_0.index t (0 : Fin 2) = t.val / 8 ∧ win1_0.index t (1 : Fin 2) = t.val % 8
    ∧ win1_1.index t (0 : Fin 2) = 0 ∧ win1_1.index t (1 : Fin 2) = t.val % 8
    ∧ win1_2.index t (0 : Fin 2) = t.val / 8 ∧ win1_2.index t (1 : Fin 2) = 0 :=
  (by decide +kernel : ∀ t : Fin grid1.N, _)

/-- The staged block of C at point `t`: rows 512 (t / 8) …, contracted coordinates 512 (t % 8) …. -/
theorem xblk_apply (c : Dev nD) (t : Fin cfg1.N) (r j : Fin 512) (hi : 512 * (t.val / 8) + r.val < 8192) (hk : 512 * (t.val % 8) + j.val < 4096) :
    xblk V c t (ix2 r j) = Cat V c (512 * (t.val / 8) + r.val) (512 * (t.val % 8) + j.val) hi hk := by
  obtain ⟨e0, e1, -⟩ := idx1 t
  unfold xblk iblk1
  rw [View.read_apply]
  show V c main_v20 _ = V c main_v20 _
  congr 1
  funext a
  apply Fin.ext
  match a with
  | ⟨0, _⟩ => show win1_0.index t (0 : Fin 2) * 512 + 1 * r.val = 512 * (t.val / 8) + r.val; rw [e0]; omega
  | ⟨1, _⟩ => show win1_0.index t (1 : Fin 2) * 512 + 1 * j.val = 512 * (t.val % 8) + j.val; rw [e1]; omega

/-- The staged block of B at point `t`: every row, contracted coordinates 512 (t % 8) …. -/
theorem bblk_apply (c : Dev nD) (t : Fin cfg1.N) (q : Fin 4096) (j : Fin 512) (hk : 512 * (t.val % 8) + j.val < 4096) :
    bblk V c t (ix2 q j) = Bat V c q.val (512 * (t.val % 8) + j.val) q.isLt hk := by
  obtain ⟨-, -, e0, e1, -⟩ := idx1 t
  unfold bblk iblk1
  rw [View.read_apply]
  show V c main_v19 _ = V c main_v19 _
  congr 1
  funext a
  apply Fin.ext
  match a with
  | ⟨0, _⟩ => show win1_1.index t (0 : Fin 2) * 4096 + 1 * q.val = q.val; rw [e0]; omega
  | ⟨1, _⟩ => show win1_1.index t (1 : Fin 2) * 512 + 1 * j.val = 512 * (t.val % 8) + j.val; rw [e1]; omega

/-- The running sum read off at another spelling of the same function and the same step. -/
theorem psum_congr {M : Type*} [AddCommMonoid M] {f g : Fin 4096 → M} (hfg : f = g) {a b : ℕ} (hab : a = b) (ha : a < 8) (hb : b < 8) :
    psum f a ha = psum g b hb := by subst hfg; subst hab; rfl

/-- The terms of the contraction for row `i` of C against row `q` of B. -/
abbrev term (c : Dev nD) (i q : ℕ) (hi : i < 8192) (hq : q < 4096) : Fin 4096 → EReal :=
  fun k => Cat V c i k.val hi k.isLt * Bat V c q k.val hq k.isLt

/-- What the accumulator holds after position `n` at row `r`, column `q`: the running sum over the first `n % 8 + 1` blocks of the
    contracted coordinate, for row `512 (n / 8) + r` of C against row `q` of B. -/
def accAt (c : Dev nD) (n : ℕ) (hn : n < 128) (r : Fin 512) (q : Fin 4096) : EReal :=
  psum (term V c (512 * (n / 8) + r.val) q.val (by have := r.isLt; omega) q.isLt) (n % 8) (Nat.mod_lt _ (by decide))

/-- At a first step the running sum is zero plus the first block's products. -/
theorem accAt_first (c : Dev nD) (n : ℕ) (hn : n < 128) (h0 : n % 8 = 0) (r : Fin 512) (q : Fin 4096) :
    accAt V c n hn r q = 0 + ∑ j : Fin 512, Cat V c (512 * (n / 8) + r.val) (512 * (n % 8) + j.val) (by have := r.isLt; omega) (by have := j.isLt; omega)
      * Bat V c q.val (512 * (n % 8) + j.val) q.isLt (by have := j.isLt; omega) := by
  unfold accAt
  rw [psum_congr rfl h0 _ (by decide), psum_zero]
  refine congrArg (0 + ·) (Finset.sum_congr rfl fun j _ => ?_)
  exact congrArg₂ (· * ·) (Cat_congr V c rfl (by show j.val = 512 * (n % 8) + j.val; omega) _ _ _ _)
    (Bat_congr V c rfl (by show j.val = 512 * (n % 8) + j.val; omega) _ _ _ _)

/-- At a later step it is the running sum of the position before plus this block's products. -/
theorem accAt_next (c : Dev nD) (n : ℕ) (hn : n < 128) (h0 : ¬n % 8 = 0) (r : Fin 512) (q : Fin 4096) :
    accAt V c n hn r q = accAt V c (n - 1) (by omega) r q
      + ∑ j : Fin 512, Cat V c (512 * (n / 8) + r.val) (512 * (n % 8) + j.val) (by have := r.isLt; omega) (by have := j.isLt; omega)
        * Bat V c q.val (512 * (n % 8) + j.val) q.isLt (by have := j.isLt; omega) := by
  obtain ⟨s, hs⟩ : ∃ s, n % 8 = s + 1 := ⟨n % 8 - 1, by omega⟩
  have hs8 : s + 1 < 8 := by omega
  unfold accAt
  rw [psum_congr rfl hs _ hs8, psum_succ]
  refine congrArg₂ (· + ·) (psum_congr (funext fun k => ?_) (by omega) _ _) (Finset.sum_congr rfl fun j _ => ?_)
  · exact congrArg₂ (· * ·) (Cat_congr V c (by omega) rfl _ _ _ _) rfl
  · exact congrArg₂ (· * ·) (Cat_congr V c rfl (by show 512 * (s + 1) + j.val = 512 * (n % 8) + j.val; omega) _ _ _ _)
      (Bat_congr V c rfl (by show 512 * (s + 1) + j.val = 512 * (n % 8) + j.val; omega) _ _ _ _)

/-- After a last step it is the whole sum over the contracted coordinate. -/
theorem accAt_last (c : Dev nD) (n : ℕ) (hn : n < 128) (h7 : n % 8 = 7) (r : Fin 512) (q : Fin 4096) :
    accAt V c n hn r q = ∑ k : Fin 4096, Cat V c (512 * (n / 8) + r.val) k.val (by have := r.isLt; omega) k.isLt * Bat V c q.val k.val q.isLt k.isLt := by
  unfold accAt
  rw [psum_congr rfl h7 _ (by decide), psum_last]

/-- A first step leaves the running sum's first stage in the accumulator. -/
theorem acc_step_first (c : Dev nD) (t : Fin cfg1.N) (h0 : t.val % 8 = 0) (r : Fin 512) (q : Fin 4096) :
    (outsAt1 V c t.val t.isLt).2 (ix2 r q) = accAt V c t.val (lt_of_lt_of_eq t.isLt N_1) r q := by
  have hN : t.val < 128 := lt_of_lt_of_eq t.isLt N_1
  have h1 : ¬t.val % 8 = 7 := by omega
  rw [outsAt1_A V c t h0 h1]
  dsimp only
  refine (congrFun (sout1_A_eq (F := Ideal) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) (ix2 r q)).trans ?_
  refine (k1_pay2_apply (xblk V c t) (bblk V c t) (k1_pay1 (F := Ideal)) r q).trans ?_
  rw [k1_pay1_apply r q, accAt_first V c t.val hN h0 r q]
  refine congrArg (0 + ·) (Finset.sum_congr rfl fun j _ => ?_)
  rw [xblk_apply V c t r j (by have := r.isLt; omega) (by have := j.isLt; omega), bblk_apply V c t q j (by have := j.isLt; omega)]

/-- A later step adds its block's products to what the position before left. -/
theorem acc_step_next (c : Dev nD) (t : Fin cfg1.N) (h0 : ¬t.val % 8 = 0)
    (ih : ∀ (r : Fin 512) (q : Fin 4096), (outsAt1 V c (t.val - 1) (Nat.lt_of_le_of_lt (Nat.sub_le _ _) t.isLt)).2 (ix2 r q)
      = accAt V c (t.val - 1) (by have := lt_of_lt_of_eq t.isLt N_1; omega) r q)
    (r : Fin 512) (q : Fin 4096) :
    (outsAt1 V c t.val t.isLt).2 (ix2 r q) = accAt V c t.val (lt_of_lt_of_eq t.isLt N_1) r q := by
  have hN : t.val < 128 := lt_of_lt_of_eq t.isLt N_1
  have key : (outsAt1 V c t.val t.isLt).2
      = k1_pay2 (xblk V c t) (bblk V c t) (outsAt1 V c (t.val - 1) (Nat.lt_of_le_of_lt (Nat.sub_le _ _) t.isLt)).2 := by
    by_cases h1 : t.val % 8 = 7
    · rw [outsAt1_C V c t h0 h1]
      dsimp only
      exact sout1_C_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2
    · rw [outsAt1_B V c t h0 h1]
      dsimp only
      exact sout1_B_eq (F := Ideal) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2
  refine (congrFun key (ix2 r q)).trans ?_
  refine (k1_pay2_apply (xblk V c t) (bblk V c t) (outsAt1 V c (t.val - 1) (Nat.lt_of_le_of_lt (Nat.sub_le _ _) t.isLt)).2 r q).trans ?_
  rw [ih r q, accAt_next V c t.val hN h0 r q]
  refine congrArg₂ (· + ·) rfl (Finset.sum_congr rfl fun j _ => ?_)
  rw [xblk_apply V c t r j (by have := r.isLt; omega) (by have := j.isLt; omega), bblk_apply V c t q j (by have := j.isLt; omega)]

/-- The invariant: after every position the accumulator holds the running sum, by induction on the position. -/
theorem acc_eq (c : Dev nD) : ∀ (n : ℕ) (hn : n < cfg1.N) (r : Fin 512) (q : Fin 4096),
    (outsAt1 V c n hn).2 (ix2 r q) = accAt V c n (lt_of_lt_of_eq hn N_1) r q := by
  intro n
  induction n with
  | zero => intro hn r q; exact acc_step_first V c ⟨0, hn⟩ (Nat.zero_mod 8) r q
  | succ n ih =>
    intro hn r q
    by_cases h0 : (n + 1) % 8 = 0
    · exact acc_step_first V c ⟨n + 1, hn⟩ h0 r q
    · exact acc_step_next V c ⟨n + 1, hn⟩ h0 (fun r q => ih (Nat.lt_of_succ_lt hn) r q) r q

/-- The region's result: at row `i`, column `q`, the sum over the contracted coordinate `k` of C (i, k) · B (q, k). -/
def O1 (c : Dev nD) : Vec Ideal S8192x4096 .f32 :=
  fun i => ∑ k : Fin 4096, Cat V c (i 0).val k.val (idx2_lt0 i) k.isLt * Bat V c (i 1).val k.val (idx2_lt1 i) k.isLt

theorem O1_apply (c : Dev nD) (i : Fin 8192) (q : Fin 4096) :
    O1 V c (ix2 i q) = ∑ k : Fin 4096, Carr V c (ix2 i k) * Barr V c (ix2 q k) := rfl

/-- What a last step writes back is its row block of the result. -/
theorem flushed1_eq (c : Dev nD) (t : Fin cfg1.N) (hf : (cfg1.win 2).flush t = true) :
    (dat1 (F := Ideal) V c).flushed 2 t = ((cfg1.win 2).blk t).view.read (Elt Ideal) (O1 V c) := by
  have hN : t.val < 128 := lt_of_lt_of_eq t.isLt N_1
  have h7 : t.val % 8 = 7 := (flush1_2 t).mp hf
  have h0 : ¬t.val % 8 = 0 := by omega
  obtain ⟨-, -, -, -, e0, e1⟩ := idx1 t
  show (cfg1.win 2).cut (grid1.coords t) ((dat1 (F := Ideal) V c).after 2 t) = _
  rw [after1_2]
  have key : (outsAt1 V c t.val t.isLt).1 = (outsAt1 V c t.val t.isLt).2 := by
    rw [outsAt1_C V c t h0 h7]
    dsimp only
    exact (out1_C_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) (outsAt1 V c (t.val - 1) (Nat.lt_of_le_of_lt (Nat.sub_le _ _) t.isLt)).2).trans
      (sout1_C_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) (outsAt1 V c (t.val - 1) (Nat.lt_of_le_of_lt (Nat.sub_le _ _) t.isLt)).2).symm
  rw [key]
  funext j
  have hj0 : (j 0).val < 512 := (j 0).isLt
  have hj1 : (j 1).val < 4096 := (j 1).isLt
  have eL : (cfg1.win 2).xinj (grid1.coords t) j = ix2 (n0 := 512) (n1 := 4096) ⟨(j 0).val, hj0⟩ ⟨(j 1).val, hj1⟩ := by
    funext a
    apply Fin.ext
    match a with
    | ⟨0, _⟩ => rfl
    | ⟨1, _⟩ => rfl
  have eR : ((cfg1.win 2).blk t).view.emb j = ix2 (n0 := 8192) (n1 := 4096) ⟨512 * (t.val / 8) + (j 0).val, by omega⟩ ⟨(j 1).val, hj1⟩ := by
    funext a
    apply Fin.ext
    match a with
    | ⟨0, _⟩ => show win1_2.index t (0 : Fin 2) * 512 + 1 * (j 0).val = 512 * (t.val / 8) + (j 0).val; rw [e0]; omega
    | ⟨1, _⟩ => show win1_2.index t (1 : Fin 2) * 4096 + 1 * (j 1).val = (j 1).val; rw [e1]; omega
  rw [View.read_apply]
  show (outsAt1 V c t.val t.isLt).2 ((cfg1.win 2).xinj (grid1.coords t) j) = O1 V c (((cfg1.win 2).blk t).view.emb j)
  rw [eL, eR, acc_eq V c t.val t.isLt ⟨(j 0).val, hj0⟩ ⟨(j 1).val, hj1⟩, accAt_last V c t.val hN h7 ⟨(j 0).val, hj0⟩ ⟨(j 1).val, hj1⟩]
  rfl

/-- Every entry of the output array lies in the row block some last step writes back: row `i` in that of point `8 (i / 512) + 7`. -/
theorem cover1 (c : Dev nD) (i : S8192x4096.Idx) :
    ∃ t : Fin cfg1.N, (cfg1.win 2).flush t = true ∧ i ∈ ((cfg1.win 2).blk t).view.set := by
  have hi0 : (i 0).val < 8192 := idx2_lt0 i
  have hi1 : (i 1).val < 4096 := idx2_lt1 i
  have hlt : 8 * ((i 0).val / 512) + 7 < cfg1.N := by rw [show cfg1.N = 128 from N_1]; omega
  obtain ⟨t, ht⟩ : ∃ t : Fin cfg1.N, t.val = 8 * ((i 0).val / 512) + 7 := ⟨⟨_, hlt⟩, rfl⟩
  obtain ⟨-, -, -, -, e0, e1⟩ := idx1 t
  refine ⟨t, (flush1_2 t).mpr (by omega), ?_⟩
  show i ∈ ((View.whole main_v21).slice (win1_2.rect t)).set
  rw [View.set_slice_whole, Rect.mem_set_unit]
  intro a
  match a with
  | ⟨0, _⟩ => show win1_2.index t (0 : Fin 2) * 512 ≤ (i 0).val ∧ (i 0).val < win1_2.index t (0 : Fin 2) * 512 + 512; rw [e0]; omega
  | ⟨1, _⟩ => show win1_2.index t (1 : Fin 2) * 4096 ≤ (i 1).val ∧ (i 1).val < win1_2.index t (1 : Fin 2) * 4096 + 4096; rw [e1]; omega

/-- So the output array ends holding the result. -/
theorem final1 (c : Dev nD) : (dat1 (F := Ideal) V c).arrAt 2 cfg1.N = O1 V c :=
  (dat1 (F := Ideal) V c).arrAt_eq_of_cover 2 (O1 V c) (flushed1_eq V c) (cover1 c)

/-- The output array after the region, entry by entry. -/
theorem final1_apply (c : Dev nD) (i : Fin 8192) (q : Fin 4096) :
    ((dat1 (F := Ideal) V c).arrAt 2 cfg1.N : Vec Ideal S8192x4096 .f32) (ix2 i q)
      = ∑ k : Fin 4096, Carr V c (ix2 i k) * Barr V c (ix2 q k) :=
  (congrFun (final1 V c) (ix2 i q)).trans (O1_apply V c i q)

end Cert.KernelIdeal.Hand.R1

end
-- ==== Proof.KI.Bridge.lean ====
/- At the ideal values the kernel program's result array is the reference's. The first region leaves in its output array, at (i, k),
   row i of the first argument against column k of the weight matrix (the three arrays it reads are the bf16 copies of the argument and
   of the weight matrix: the same extended reals); the second region leaves, at (i, q), row i of that array against ROW q of the second
   argument's bf16 copy. That is the reference's product with the transposed second argument, entry by entry. -/
import proofs.«107319_j2078764171786_1_alg».proof.Proof.KI.Frame
import proofs.«107319_j2078764171786_1_alg».proof.Proof.KI.Host
import proofs.«107319_j2078764171786_1_alg».proof.Proof.KI.RefSide
import proofs.«107319_j2078764171786_1_alg».proof.Proof.KI.Value0
import proofs.«107319_j2078764171786_1_alg».proof.Proof.KI.Value1
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The kernel program's result array: what the second region's write-backs leave in it. -/
abbrev result (c : Dev nD) : Buf (Elt Ideal) ((c.tc : Thread nD τ).loc main_v21) := (dat1 (F := Ideal) (V4r m) c).arrAt 2 cfg1.N

/-- The arrays the two regions read and write, each at its literal type: the first region's operands as the host operations leave them,
    its output and the second region's other operand as the second region finds them, the result, and the two arguments. -/
abbrev arrA (c : Dev nD) : Vec Ideal S8192x4096 .bf16 := Gen.V3 m c (Proc.devRef .tc main_v18)
abbrev arrW (c : Dev nD) : Vec Ideal S4096x4096 .bf16 := Gen.V3 m c (Proc.devRef .tc main_v17)
abbrev arrC (c : Dev nD) : Vec Ideal S8192x4096 .bf16 := W4 m c (Proc.devRef .tc main_v20)
abbrev arrB (c : Dev nD) : Vec Ideal S4096x4096 .bf16 := W4 m c (Proc.devRef .tc main_v19)
abbrev arrO (c : Dev nD) : Vec Ideal S8192x4096 .f32 := result m c
abbrev arg0 (c : Dev nD) : Vec Ideal S8192x4096 .f32 := m ((c : Thread nD τ).loc main_arg0)
abbrev arg1 (c : Dev nD) : Vec Ideal S4096x4096 .f32 := m ((c : Thread nD τ).loc main_arg1)

theorem arrA_apply (c : Dev nD) (i : Fin 8192) (j : Fin 4096) : arrA m c (ix2 i j) = arg0 m c (ix2 i j) := by
  show Gen.V3 m c (Proc.devRef .tc main_v18) (ix2 i j) = _
  rw [V3_v18]; rfl
theorem arrW_apply (c : Dev nD) (j k : Fin 4096) :
    arrW m c (ix2 j k) = Cert.ReferenceIdeal.ReadP.val_main_v16 (F := Ideal) (ix2 j k) := by
  show Gen.V3 m c (Proc.devRef .tc main_v17) (ix2 j k) = _
  rw [V3_v17, ← wmat_eq_ref]; rfl
/-- The second argument's copy is not an array of the first region: the second region finds it as the host operations left it. -/
theorem arrB_apply (c : Dev nD) (q k : Fin 4096) : arrB m c (ix2 q k) = arg1 m c (ix2 q k) := by
  show W4 m c (Proc.devRef .tc main_v19) (ix2 q k) = _
  rw [W4_of_ne m c main_v19 (by decide), V3_v19]; rfl

/-- From the two regions' outputs entry by entry to the reference's result. -/
theorem result_eq_ref_of (c : Dev nD)
    (h0 : ∀ (i : Fin 8192) (k : Fin 4096), arrC m c (ix2 i k) = ∑ j : Fin 4096, arrA m c (ix2 i j) * arrW m c (ix2 j k))
    (h1 : ∀ (i : Fin 8192) (q : Fin 4096), arrO m c (ix2 i q) = ∑ k : Fin 4096, arrC m c (ix2 i k) * arrB m c (ix2 q k)) :
    result m c = Cert.ReferenceIdeal.ReadP.val_main_v19 (F := Ideal) (m ((c : Thread nD τ).loc main_arg0)) (m ((c : Thread nD τ).loc main_arg1)) := by
  funext idx
  obtain ⟨i, q, rfl⟩ : ∃ (i : Fin 8192) (q : Fin 4096), idx = ix2 i q := ⟨idx 0, idx 1, eq_ix2 idx⟩
  refine (h1 i q).trans ?_
  refine (Finset.sum_congr rfl fun k _ => ?_).trans (Cert.ReferenceIdeal.Hand.ref_apply (arg0 m c) (arg1 m c) i q).symm
  rw [h0 i k, arrB_apply]
  refine congrArg (· * arg1 m c (ix2 q k)) (Finset.sum_congr rfl fun j _ => ?_)
  rw [arrA_apply, arrW_apply]

/-- The kernel program's result array is the reference's result of the same two arguments: the first region's output is A·W entry by
    entry (its value over the arrays it finds), the second region's is that array against the rows of the second argument. -/
theorem result_eq_ref (c : Dev nD) :
    result m c = Cert.ReferenceIdeal.ReadP.val_main_v19 (F := Ideal) (m ((c : Thread nD τ).loc main_arg0)) (m ((c : Thread nD τ).loc main_arg1)) :=
  result_eq_ref_of m c
    (fun i k => by
      show W4 m c (Proc.devRef .tc main_v20) (ix2 i k) = _
      rw [W4_v20, final0]
      exact C0_apply (V3r m) c i k)
    (fun i q => R1.final1_apply (V4r m) c i q)

end Cert.KernelIdeal.Hand

end
-- ==== Proof.lean ====
/- The kernel computes out = (A·W)·Bᵀ in two pallas_calls, each a matrix product whose contraction is cut into eight steps of 512
   accumulated in a scratch buffer (zeroed at the first step, written out at the last), over bf16 copies of its operands; the
   reference computes (A @ W) @ B.T with two dot_generals and a transpose. W is the same 4096x4096 weight matrix on both sides, built
   by the same host operations. On the extended reals a change of float format is the identity and a sum may be regrouped, so
   both results are, at row i and column q, the sum over k of (the sum over j of A[i,j]·W[j,k]) · B[q,k].
   The three programs' frames: the two kernel programs run their two regions to the end and write no argument; the reference is a
   straight line of host operations. The ideal pass rewrote nothing, so the idealization claim is trivial. -/
import proofs.«107319_j2078764171786_1_alg».proof.Defs
import proofs.«107319_j2078764171786_1_alg».proof.Proof.Gen.Kernel
import proofs.«107319_j2078764171786_1_alg».proof.Proof.Gen.KernelIdeal
import proofs.«107319_j2078764171786_1_alg».proof.Proof.Gen.ReferenceIdeal
import proofs.«107319_j2078764171786_1_alg».proof.Proof.Gen.Pre_finite_inputs
import proofs.«107319_j2078764171786_1_alg».proof.Proof.K.Frame
import proofs.«107319_j2078764171786_1_alg».proof.Proof.KI.Frame
import proofs.«107319_j2078764171786_1_alg».proof.Proof.KI.Bridge
import proofs.«107319_j2078764171786_1_alg».proof.Proof.RefRun
import proofs.«107319_j2078764171786_1_alg».proof.Proof.RefRead

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the two arguments, both idealized programs end with the same result array. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Hand.result m c, Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  exact (Cert.KernelIdeal.Hand.result_eq_ref m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
